-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x50x50x100x64 : Shape := ⟨5, ![8, 50, 50, 100, 64]⟩
abbrev S8x100x12 : Shape := ⟨3, ![8, 100, 12]⟩
abbrev S8x100 : Shape := ⟨2, ![8, 100]⟩
abbrev S_ : Shape := ⟨0, ![]⟩

class Facts : Prop where
  bcast_S_S8x50x50x100x64 : S_.BroadcastsInDim S8x50x50x100x64 (![] : Fin 0 → Fin S8x50x50x100x64.rank)
  reducesTo_S8x50x50x100x64_S_d0_1_2_3_4 : S8x50x50x100x64.ReducesTo [0, 1, 2, 3, 4] S_
  h_S_ : 0 < S_.numel
  bcast_S_S8x100 : S_.BroadcastsInDim S8x100 (![] : Fin 0 → Fin S8x100.rank)
  reducesTo_S8x100_S_d0_1 : S8x100.ReducesTo [0, 1] S_
  bcast_S_S8x100x12 : S_.BroadcastsInDim S8x100x12 (![] : Fin 0 → Fin S8x100x12.rank)
  reducesTo_S8x100x12_S_d0_1_2 : S8x100x12.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x50x50x100x64 .f32) (main_arg1 : IVec S8x100x12 32) (main_arg2 : IVec S8x100 32) (main_arg3 : FVec F S8x100 .f32) : IVec S_ 1 :=
  let main_v0 : FVec F S8x50x50x100x64 .f32 := Host.absf main_arg0
  let main_cst : FVec F S_ .f32 := constant S_ .f32 0x7F800000#32
  let main_v1 : FVec F S8x50x50x100x64 .f32 := broadcastInDim S8x50x50x100x64 ![] bcast_S_S8x50x50x100x64 main_cst
  let main_v2 : IVec S8x50x50x100x64 1 := cmpf .olt main_v0 main_v1
  let main_c : IVec S_ 1 := constantI S_ 1 1#1
  let main_v3 : IVec S_ 1 := (fun x v => Host.reduce IntOp.andi x v reducesTo_S8x50x50x100x64_S_d0_1_2_3_4 h_S_) main_v2 main_c
  let main_v4 : FVec F S8x100 .f32 := Host.absf main_arg3
  let main_cst_0 : FVec F S_ .f32 := constant S_ .f32 0x7F800000#32
  let main_v5 : FVec F S8x100 .f32 := broadcastInDim S8x100 ![] bcast_S_S8x100 main_cst_0
  let main_v6 : IVec S8x100 1 := cmpf .olt main_v4 main_v5
  let main_c_1 : IVec S_ 1 := constantI S_ 1 1#1
  let main_v7 : IVec S_ 1 := (fun x v => Host.reduce IntOp.andi x v reducesTo_S8x100_S_d0_1 h_S_) main_v6 main_c_1
  let main_v8 : IVec S_ 1 := andi main_v3 main_v7
  let main_c_2 : IVec S_ 32 := constantI S_ 32 0#32
  let main_v9 : IVec S8x100x12 32 := broadcastInDim S8x100x12 ![] bcast_S_S8x100x12 main_c_2
  let main_v10 : IVec S8x100x12 1 := cmpi .sge main_arg1 main_v9
  let main_c_3 : IVec S_ 1 := constantI S_ 1 1#1
  let main_v11 : IVec S_ 1 := (fun x v => Host.reduce IntOp.andi x v reducesTo_S8x100x12_S_d0_1_2 h_S_) main_v10 main_c_3
  let main_v12 : IVec S_ 1 := andi main_v8 main_v11
  let main_c_4 : IVec S_ 32 := constantI S_ 32 50#32
  let main_v13 : IVec S8x100x12 32 := broadcastInDim S8x100x12 ![] bcast_S_S8x100x12 main_c_4
  let main_v14 : IVec S8x100x12 1 := cmpi .slt main_arg1 main_v13
  let main_c_5 : IVec S_ 1 := constantI S_ 1 1#1
  let main_v15 : IVec S_ 1 := (fun x v => Host.reduce IntOp.andi x v reducesTo_S8x100x12_S_d0_1_2 h_S_) main_v14 main_c_5
  fn_part1 (F := F) main_v12 main_v15
-- ==== Kernel.lean ====
abbrev S8x50x50x100x64 : Shape := ⟨5, ![8, 50, 50, 100, 64]⟩
abbrev S8x100x12 : Shape := ⟨3, ![8, 100, 12]⟩
abbrev S8x100 : Shape := ⟨2, ![8, 100]⟩
abbrev S8x100x11 : Shape := ⟨3, ![8, 100, 11]⟩
abbrev S_ : Shape := ⟨0, ![]⟩
abbrev S11 : Shape := ⟨1, ![11]⟩
abbrev S1x1x11 : Shape := ⟨3, ![1, 1, 11]⟩
abbrev S8x100x1 : Shape := ⟨3, ![8, 100, 1]⟩
abbrev S50 : Shape := ⟨1, ![50]⟩
abbrev S8x100x11x1 : Shape := ⟨4, ![8, 100, 11, 1]⟩
abbrev S1x1x1x50 : Shape := ⟨4, ![1, 1, 1, 50]⟩
abbrev S8x100x11x50 : Shape := ⟨4, ![8, 100, 11, 50]⟩
abbrev S8x100x50x50 : Shape := ⟨4, ![8, 100, 50, 50]⟩
abbrev S8x50x100x50 : Shape := ⟨4, ![8, 50, 100, 50]⟩
abbrev S8x100x2 : Shape := ⟨3, ![8, 100, 2]⟩
abbrev S8x100x65 : Shape := ⟨3, ![8, 100, 65]⟩
abbrev S1x50x5x100x64 : Shape := ⟨5, ![1, 50, 5, 100, 64]⟩
abbrev S1x5x100x50 : Shape := ⟨4, ![1, 5, 100, 50]⟩
abbrev S1x100x2 : Shape := ⟨3, ![1, 100, 2]⟩
abbrev S1x100x65 : Shape := ⟨3, ![1, 100, 65]⟩
abbrev S100x64 : Shape := ⟨2, ![100, 64]⟩
abbrev S1x1x100x50 : Shape := ⟨4, ![1, 1, 100, 50]⟩
abbrev S100x50 : Shape := ⟨2, ![100, 50]⟩
abbrev S1x50x1x100x64 : Shape := ⟨5, ![1, 50, 1, 100, 64]⟩
abbrev S50x1x100x64 : Shape := ⟨4, ![50, 1, 100, 64]⟩
abbrev S100x1 : Shape := ⟨2, ![100, 1]⟩
abbrev S1x1x100x64 : Shape := ⟨4, ![1, 1, 100, 64]⟩
abbrev S100x2 : Shape := ⟨2, ![100, 2]⟩
abbrev S100x65 : Shape := ⟨2, ![100, 65]⟩

abbrev nBuf : Space → Nat
  | .hbm => 49
  | .vmem => 9
  | .smem => 0
  | _ => 0

abbrev bufTy : (tb : Table) → Fin (tcTables nBuf tb) → BufTy
  | .hbm, ⟨0, _⟩ => ⟨S8x50x50x100x64, .f32⟩
  | .hbm, ⟨1, _⟩ => ⟨S8x100x12, .i32⟩
  | .hbm, ⟨2, _⟩ => ⟨S8x100, .i32⟩
  | .hbm, ⟨3, _⟩ => ⟨S8x100, .f32⟩
  | .hbm, ⟨4, _⟩ => ⟨S8x100x11, .i32⟩
  | .hbm, ⟨5, _⟩ => ⟨S8x100x11, .i32⟩
  | .hbm, ⟨6, _⟩ => ⟨S_, .i32⟩
  | .hbm, ⟨7, _⟩ => ⟨S8x100, .i32⟩
  | .hbm, ⟨8, _⟩ => ⟨S8x100, .i32⟩
  | .hbm, ⟨9, _⟩ => ⟨S_, .i32⟩
  | .hbm, ⟨10, _⟩ => ⟨S8x100, .i32⟩
  | .hbm, ⟨11, _⟩ => ⟨S8x100, .i32⟩
  | .hbm, ⟨12, _⟩ => ⟨S11, .i32⟩
  | .hbm, ⟨13, _⟩ => ⟨S1x1x11, .i32⟩
  | .hbm, ⟨14, _⟩ => ⟨S8x100x1, .i32⟩
  | .hbm, ⟨15, _⟩ => ⟨S8x100x11, .i32⟩
  | .hbm, ⟨16, _⟩ => ⟨S8x100x11, .i32⟩
  | .hbm, ⟨17, _⟩ => ⟨S8x100x11, .i1⟩
  | .hbm, ⟨18, _⟩ => ⟨S8x100x11, .f32⟩
  | .hbm, ⟨19, _⟩ => ⟨S50, .i32⟩
  | .hbm, ⟨20, _⟩ => ⟨S50, .i32⟩
  | .hbm, ⟨21, _⟩ => ⟨S8x100x11x1, .i32⟩
  | .hbm, ⟨22, _⟩ => ⟨S1x1x1x50, .i32⟩
  | .hbm, ⟨23, _⟩ => ⟨S8x100x11x50, .i32⟩
  | .hbm, ⟨24, _⟩ => ⟨S8x100x11x50, .i32⟩
  | .hbm, ⟨25, _⟩ => ⟨S8x100x11x50, .i1⟩
  | .hbm, ⟨26, _⟩ => ⟨S8x100x11x50, .f32⟩
  | .hbm, ⟨27, _⟩ => ⟨S8x100x11x1, .i32⟩
  | .hbm, ⟨28, _⟩ => ⟨S1x1x1x50, .i32⟩
  | .hbm, ⟨29, _⟩ => ⟨S8x100x11x50, .i32⟩
  | .hbm, ⟨30, _⟩ => ⟨S8x100x11x50, .i32⟩
  | .hbm, ⟨31, _⟩ => ⟨S8x100x11x50, .i1⟩
  | .hbm, ⟨32, _⟩ => ⟨S8x100x11x50, .f32⟩
  | .hbm, ⟨33, _⟩ => ⟨S8x100x11x1, .f32⟩
  | .hbm, ⟨34, _⟩ => ⟨S8x100x11x50, .f32⟩
  | .hbm, ⟨35, _⟩ => ⟨S8x100x11x50, .f32⟩
  | .hbm, ⟨36, _⟩ => ⟨S8x100x50x50, .f32⟩
  | .hbm, ⟨37, _⟩ => ⟨S8x50x100x50, .f32⟩
  | .hbm, ⟨38, _⟩ => ⟨S_, .i32⟩
  | .hbm, ⟨39, _⟩ => ⟨S8x100, .i32⟩
  | .hbm, ⟨40, _⟩ => ⟨S8x100, .i32⟩
  | .hbm, ⟨41, _⟩ => ⟨S8x100, .f32⟩
  | .hbm, ⟨42, _⟩ => ⟨S8x100x1, .f32⟩
  | .hbm, ⟨43, _⟩ => ⟨S_, .f32⟩
  | .hbm, ⟨44, _⟩ => ⟨S8x100, .f32⟩
  | .hbm, ⟨45, _⟩ => ⟨S8x100, .f32⟩
  | .hbm, ⟨46, _⟩ => ⟨S8x100x1, .f32⟩
  | .hbm, ⟨47, _⟩ => ⟨S8x100x2, .f32⟩
  | .hbm, ⟨48, _⟩ => ⟨S8x100x65, .f32⟩
  | .local _ .vmem, ⟨0, _⟩ => ⟨S1x50x5x100x64, .f32⟩
  | .local _ .vmem, ⟨1, _⟩ => ⟨S1x50x5x100x64, .f32⟩
  | .local _ .vmem, ⟨2, _⟩ => ⟨S1x5x100x50, .f32⟩
  | .local _ .vmem, ⟨3, _⟩ => ⟨S1x5x100x50, .f32⟩
  | .local _ .vmem, ⟨4, _⟩ => ⟨S1x100x2, .f32⟩
  | .local _ .vmem, ⟨5, _⟩ => ⟨S1x100x2, .f32⟩
  | .local _ .vmem, ⟨6, _⟩ => ⟨S1x100x65, .f32⟩
  | .local _ .vmem, ⟨7, _⟩ => ⟨S1x100x65, .f32⟩
  | .local _ .vmem, ⟨8, _⟩ => ⟨S100x64, .f32⟩
  | _, _ => ⟨S8x50x50x100x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v1789 : BitVec 1 := Scalar.cmpi .eq arg1 c9_i32
  let v1790 : BitVec 32 := Scalar.extui v1789
  let c0_i32_40 : BitVec 32 := 0#32
  let v1791 : BitVec 1 := Scalar.cmpi .ne v1790 c0_i32_40
  v1791

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x50x5x100x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x100x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x100x65 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S8x100x12_S8x100x11_0_0_0 : S8x100x12.Slices ![0, 0, 0] S8x100x11
  slices_S8x100x12_S8x100x11_0_0_1 : S8x100x12.Slices ![0, 0, 1] S8x100x11
  bcast_S_S8x100 : S_.BroadcastsInDim S8x100 (![] : Fin 0 → Fin S8x100.rank)
  bcast_S11_S1x1x11_2 : S11.BroadcastsInDim S1x1x11 (![2] : Fin 1 → Fin S1x1x11.rank)
  bcast_S8x100_S8x100x1_0_1 : S8x100.BroadcastsInDim S8x100x1 (![0, 1] : Fin 2 → Fin S8x100x1.rank)
  bcast_S1x1x11_S8x100x11_0_1_2 : S1x1x11.BroadcastsInDim S8x100x11 (![0, 1, 2] : Fin 3 → Fin S8x100x11.rank)
  bcast_S8x100x1_S8x100x11_0_1_2 : S8x100x1.BroadcastsInDim S8x100x11 (![0, 1, 2] : Fin 3 → Fin S8x100x11.rank)
  bcast_S8x100x11_S8x100x11x1_0_1_2 : S8x100x11.BroadcastsInDim S8x100x11x1 (![0, 1, 2] : Fin 3 → Fin S8x100x11x1.rank)
  bcast_S50_S1x1x1x50_3 : S50.BroadcastsInDim S1x1x1x50 (![3] : Fin 1 → Fin S1x1x1x50.rank)
  bcast_S8x100x11x1_S8x100x11x50_0_1_2_3 : S8x100x11x1.BroadcastsInDim S8x100x11x50 (![0, 1, 2, 3] : Fin 4 → Fin S8x100x11x50.rank)
  bcast_S1x1x1x50_S8x100x11x50_0_1_2_3 : S1x1x1x50.BroadcastsInDim S8x100x11x50 (![0, 1, 2, 3] : Fin 4 → Fin S8x100x11x50.rank)
  transposes_S8x100x50x50_S8x50x100x50_0_3_1_2 : S8x100x50x50.Transposes [0, 3, 1, 2] S8x50x100x50
  concatenates_S8x100x1_S8x100x1_S8x100x2_d2 : Shape.Concatenates [S8x100x1, S8x100x1] S8x100x2 2
  inb_S100x64_S100x64_0_0 : ∀ a, (![0, 0] : Fin 2 → Nat) a + S100x64.size a ≤ S100x64.size a
  h_S100x64 : 0 < S100x64.numel
  shapeCasts_S100x64_S100x64 : S100x64.ShapeCasts S100x64
  inb_S1x5x100x50_S1x1x100x50_0_0_0_0 : ∀ a, (![0, 0, 0, 0] : Fin 4 → Nat) a + S1x1x100x50.size a ≤ S1x5x100x50.size a
  h_S1x1x100x50 : 0 < S1x1x100x50.numel
  shapeCasts_S1x1x100x50_S100x50 : S1x1x100x50.ShapeCasts S100x50
  inb_S1x50x5x100x64_S1x50x1x100x64_0_0_0_0_0 : ∀ a, (![0, 0, 0, 0, 0] : Fin 5 → Nat) a + S1x50x1x100x64.size a ≤ S1x50x5x100x64.size a
  h_S1x50x1x100x64 : 0 < S1x50x1x100x64.numel
  shapeCasts_S1x50x1x100x64_S50x1x100x64 : S1x50x1x100x64.ShapeCasts S50x1x100x64
  slices_S100x50_o0_0_S100x1 : S100x50.Slices ![0, 0] S100x1
  shapeCasts_S100x1_S100x1 : S100x1.ShapeCasts S100x1
  broadcasts_S100x1_S100x64 : S100x1.Broadcasts S100x64
  slices_S50x1x100x64_o0_0_0_0_S1x1x100x64 : S50x1x100x64.Slices ![0, 0, 0, 0] S1x1x100x64
  shapeCasts_S1x1x100x64_S100x64 : S1x1x100x64.ShapeCasts S100x64
  slices_S100x50_o0_1_S100x1 : S100x50.Slices ![0, 1] S100x1
  slices_S50x1x100x64_o1_0_0_0_S1x1x100x64 : S50x1x100x64.Slices ![1, 0, 0, 0] S1x1x100x64
  slices_S100x50_o0_2_S100x1 : S100x50.Slices ![0, 2] S100x1
  slices_S50x1x100x64_o2_0_0_0_S1x1x100x64 : S50x1x100x64.Slices ![2, 0, 0, 0] S1x1x100x64
  slices_S100x50_o0_3_S100x1 : S100x50.Slices ![0, 3] S100x1
  slices_S50x1x100x64_o3_0_0_0_S1x1x100x64 : S50x1x100x64.Slices ![3, 0, 0, 0] S1x1x100x64
  slices_S100x50_o0_4_S100x1 : S100x50.Slices ![0, 4] S100x1
  slices_S50x1x100x64_o4_0_0_0_S1x1x100x64 : S50x1x100x64.Slices ![4, 0, 0, 0] S1x1x100x64
  slices_S100x50_o0_5_S100x1 : S100x50.Slices ![0, 5] S100x1
  slices_S50x1x100x64_o5_0_0_0_S1x1x100x64 : S50x1x100x64.Slices ![5, 0, 0, 0] S1x1x100x64
  slices_S100x50_o0_6_S100x1 : S100x50.Slices ![0, 6] S100x1
  slices_S50x1x100x64_o6_0_0_0_S1x1x100x64 : S50x1x100x64.Slices ![6, 0, 0, 0] S1x1x100x64
  slices_S100x50_o0_7_S100x1 : S100x50.Slices ![0, 7] S100x1
  slices_S50x1x100x64_o7_0_0_0_S1x1x100x64 : S50x1x100x64.Slices ![7, 0, 0, 0] S1x1x100x64
  slices_S100x50_o0_8_S100x1 : S100x50.Slices ![0, 8] S100x1
  slices_S50x1x100x64_o8_0_0_0_S1x1x100x64 : S50x1x100x64.Slices ![8, 0, 0, 0] S1x1x100x64
  slices_S100x50_o0_9_S100x1 : S100x50.Slices ![0, 9] S100x1
  slices_S50x1x100x64_o9_0_0_0_S1x1x100x64 : S50x1x100x64.Slices ![9, 0, 0, 0] S1x1x100x64
  slices_S100x50_o0_10_S100x1 : S100x50.Slices ![0, 10] S100x1
  slices_S50x1x100x64_o10_0_0_0_S1x1x100x64 : S50x1x100x64.Slices ![10, 0, 0, 0] S1x1x100x64
  slices_S100x50_o0_11_S100x1 : S100x50.Slices ![0, 11] S100x1
  slices_S50x1x100x64_o11_0_0_0_S1x1x100x64 : S50x1x100x64.Slices ![11, 0, 0, 0] S1x1x100x64
  slices_S100x50_o0_12_S100x1 : S100x50.Slices ![0, 12] S100x1
  slices_S50x1x100x64_o12_0_0_0_S1x1x100x64 : S50x1x100x64.Slices ![12, 0, 0, 0] S1x1x100x64
  slices_S100x50_o0_13_S100x1 : S100x50.Slices ![0, 13] S100x1
  slices_S50x1x100x64_o13_0_0_0_S1x1x100x64 : S50x1x100x64.Slices ![13, 0, 0, 0] S1x1x100x64
  slices_S100x50_o0_14_S100x1 : S100x50.Slices ![0, 14] S100x1
  slices_S50x1x100x64_o14_0_0_0_S1x1x100x64 : S50x1x100x64.Slices ![14, 0, 0, 0] S1x1x100x64
  slices_S100x50_o0_15_S100x1 : S100x50.Slices ![0, 15] S100x1
  slices_S50x1x100x64_o15_0_0_0_S1x1x100x64 : S50x1x100x64.Slices ![15, 0, 0, 0] S1x1x100x64
  slices_S100x50_o0_16_S100x1 : S100x50.Slices ![0, 16] S100x1
  slices_S50x1x100x64_o16_0_0_0_S1x1x100x64 : S50x1x100x64.Slices ![16, 0, 0, 0] S1x1x100x64
  slices_S100x50_o0_17_S100x1 : S100x50.Slices ![0, 17] S100x1
  slices_S50x1x100x64_o17_0_0_0_S1x1x100x64 : S50x1x100x64.Slices ![17, 0, 0, 0] S1x1x100x64
  slices_S100x50_o0_18_S100x1 : S100x50.Slices ![0, 18] S100x1
  slices_S50x1x100x64_o18_0_0_0_S1x1x100x64 : S50x1x100x64.Slices ![18, 0, 0, 0] S1x1x100x64
  slices_S100x50_o0_19_S100x1 : S100x50.Slices ![0, 19] S100x1
  slices_S50x1x100x64_o19_0_0_0_S1x1x100x64 : S50x1x100x64.Slices ![19, 0, 0, 0] S1x1x100x64
  slices_S100x50_o0_20_S100x1 : S100x50.Slices ![0, 20] S100x1
  slices_S50x1x100x64_o20_0_0_0_S1x1x100x64 : S50x1x100x64.Slices ![20, 0, 0, 0] S1x1x100x64
  slices_S100x50_o0_21_S100x1 : S100x50.Slices ![0, 21] S100x1
  slices_S50x1x100x64_o21_0_0_0_S1x1x100x64 : S50x1x100x64.Slices ![21, 0, 0, 0] S1x1x100x64
  slices_S100x50_o0_22_S100x1 : S100x50.Slices ![0, 22] S100x1
  slices_S50x1x100x64_o22_0_0_0_S1x1x100x64 : S50x1x100x64.Slices ![22, 0, 0, 0] S1x1x100x64
  slices_S100x50_o0_23_S100x1 : S100x50.Slices ![0, 23] S100x1
  slices_S50x1x100x64_o23_0_0_0_S1x1x100x64 : S50x1x100x64.Slices ![23, 0, 0, 0] S1x1x100x64
  slices_S100x50_o0_24_S100x1 : S100x50.Slices ![0, 24] S100x1
  slices_S50x1x100x64_o24_0_0_0_S1x1x100x64 : S50x1x100x64.Slices ![24, 0, 0, 0] S1x1x100x64
  slices_S100x50_o0_25_S100x1 : S100x50.Slices ![0, 25] S100x1
  slices_S50x1x100x64_o25_0_0_0_S1x1x100x64 : S50x1x100x64.Slices ![25, 0, 0, 0] S1x1x100x64
  slices_S100x50_o0_26_S100x1 : S100x50.Slices ![0, 26] S100x1
  slices_S50x1x100x64_o26_0_0_0_S1x1x100x64 : S50x1x100x64.Slices ![26, 0, 0, 0] S1x1x100x64
  slices_S100x50_o0_27_S100x1 : S100x50.Slices ![0, 27] S100x1
  slices_S50x1x100x64_o27_0_0_0_S1x1x100x64 : S50x1x100x64.Slices ![27, 0, 0, 0] S1x1x100x64
  slices_S100x50_o0_28_S100x1 : S100x50.Slices ![0, 28] S100x1
  slices_S50x1x100x64_o28_0_0_0_S1x1x100x64 : S50x1x100x64.Slices ![28, 0, 0, 0] S1x1x100x64
  slices_S100x50_o0_29_S100x1 : S100x50.Slices ![0, 29] S100x1
  slices_S50x1x100x64_o29_0_0_0_S1x1x100x64 : S50x1x100x64.Slices ![29, 0, 0, 0] S1x1x100x64
  slices_S100x50_o0_30_S100x1 : S100x50.Slices ![0, 30] S100x1
  slices_S50x1x100x64_o30_0_0_0_S1x1x100x64 : S50x1x100x64.Slices ![30, 0, 0, 0] S1x1x100x64
  slices_S100x50_o0_31_S100x1 : S100x50.Slices ![0, 31] S100x1
  slices_S50x1x100x64_o31_0_0_0_S1x1x100x64 : S50x1x100x64.Slices ![31, 0, 0, 0] S1x1x100x64
  slices_S100x50_o0_32_S100x1 : S100x50.Slices ![0, 32] S100x1
  slices_S50x1x100x64_o32_0_0_0_S1x1x100x64 : S50x1x100x64.Slices ![32, 0, 0, 0] S1x1x100x64
  slices_S100x50_o0_33_S100x1 : S100x50.Slices ![0, 33] S100x1
  slices_S50x1x100x64_o33_0_0_0_S1x1x100x64 : S50x1x100x64.Slices ![33, 0, 0, 0] S1x1x100x64
  slices_S100x50_o0_34_S100x1 : S100x50.Slices ![0, 34] S100x1
  slices_S50x1x100x64_o34_0_0_0_S1x1x100x64 : S50x1x100x64.Slices ![34, 0, 0, 0] S1x1x100x64
  slices_S100x50_o0_35_S100x1 : S100x50.Slices ![0, 35] S100x1
  slices_S50x1x100x64_o35_0_0_0_S1x1x100x64 : S50x1x100x64.Slices ![35, 0, 0, 0] S1x1x100x64
  slices_S100x50_o0_36_S100x1 : S100x50.Slices ![0, 36] S100x1
  slices_S50x1x100x64_o36_0_0_0_S1x1x100x64 : S50x1x100x64.Slices ![36, 0, 0, 0] S1x1x100x64
  slices_S100x50_o0_37_S100x1 : S100x50.Slices ![0, 37] S100x1
  slices_S50x1x100x64_o37_0_0_0_S1x1x100x64 : S50x1x100x64.Slices ![37, 0, 0, 0] S1x1x100x64
  slices_S100x50_o0_38_S100x1 : S100x50.Slices ![0, 38] S100x1
  slices_S50x1x100x64_o38_0_0_0_S1x1x100x64 : S50x1x100x64.Slices ![38, 0, 0, 0] S1x1x100x64
  slices_S100x50_o0_39_S100x1 : S100x50.Slices ![0, 39] S100x1
  slices_S50x1x100x64_o39_0_0_0_S1x1x100x64 : S50x1x100x64.Slices ![39, 0, 0, 0] S1x1x100x64
  slices_S100x50_o0_40_S100x1 : S100x50.Slices ![0, 40] S100x1
  slices_S50x1x100x64_o40_0_0_0_S1x1x100x64 : S50x1x100x64.Slices ![40, 0, 0, 0] S1x1x100x64
  slices_S100x50_o0_41_S100x1 : S100x50.Slices ![0, 41] S100x1
  slices_S50x1x100x64_o41_0_0_0_S1x1x100x64 : S50x1x100x64.Slices ![41, 0, 0, 0] S1x1x100x64
  slices_S100x50_o0_42_S100x1 : S100x50.Slices ![0, 42] S100x1
  slices_S50x1x100x64_o42_0_0_0_S1x1x100x64 : S50x1x100x64.Slices ![42, 0, 0, 0] S1x1x100x64
  slices_S100x50_o0_43_S100x1 : S100x50.Slices ![0, 43] S100x1
  slices_S50x1x100x64_o43_0_0_0_S1x1x100x64 : S50x1x100x64.Slices ![43, 0, 0, 0] S1x1x100x64
  slices_S100x50_o0_44_S100x1 : S100x50.Slices ![0, 44] S100x1
  slices_S50x1x100x64_o44_0_0_0_S1x1x100x64 : S50x1x100x64.Slices ![44, 0, 0, 0] S1x1x100x64
  slices_S100x50_o0_45_S100x1 : S100x50.Slices ![0, 45] S100x1
  slices_S50x1x100x64_o45_0_0_0_S1x1x100x64 : S50x1x100x64.Slices ![45, 0, 0, 0] S1x1x100x64
  slices_S100x50_o0_46_S100x1 : S100x50.Slices ![0, 46] S100x1
  slices_S50x1x100x64_o46_0_0_0_S1x1x100x64 : S50x1x100x64.Slices ![46, 0, 0, 0] S1x1x100x64
  slices_S100x50_o0_47_S100x1 : S100x50.Slices ![0, 47] S100x1
  slices_S50x1x100x64_o47_0_0_0_S1x1x100x64 : S50x1x100x64.Slices ![47, 0, 0, 0] S1x1x100x64
  slices_S100x50_o0_48_S100x1 : S100x50.Slices ![0, 48] S100x1
  slices_S50x1x100x64_o48_0_0_0_S1x1x100x64 : S50x1x100x64.Slices ![48, 0, 0, 0] S1x1x100x64
  slices_S100x50_o0_49_S100x1 : S100x50.Slices ![0, 49] S100x1
  slices_S50x1x100x64_o49_0_0_0_S1x1x100x64 : S50x1x100x64.Slices ![49, 0, 0, 0] S1x1x100x64
  inb_S1x5x100x50_S1x1x100x50_0_1_0_0 : ∀ a, (![0, 1, 0, 0] : Fin 4 → Nat) a + S1x1x100x50.size a ≤ S1x5x100x50.size a
  inb_S1x50x5x100x64_S1x50x1x100x64_0_0_1_0_0 : ∀ a, (![0, 0, 1, 0, 0] : Fin 5 → Nat) a + S1x50x1x100x64.size a ≤ S1x50x5x100x64.size a
  inb_S1x5x100x50_S1x1x100x50_0_2_0_0 : ∀ a, (![0, 2, 0, 0] : Fin 4 → Nat) a + S1x1x100x50.size a ≤ S1x5x100x50.size a
  inb_S1x50x5x100x64_S1x50x1x100x64_0_0_2_0_0 : ∀ a, (![0, 0, 2, 0, 0] : Fin 5 → Nat) a + S1x50x1x100x64.size a ≤ S1x50x5x100x64.size a
  inb_S1x5x100x50_S1x1x100x50_0_3_0_0 : ∀ a, (![0, 3, 0, 0] : Fin 4 → Nat) a + S1x1x100x50.size a ≤ S1x5x100x50.size a
  inb_S1x50x5x100x64_S1x50x1x100x64_0_0_3_0_0 : ∀ a, (![0, 0, 3, 0, 0] : Fin 5 → Nat) a + S1x50x1x100x64.size a ≤ S1x50x5x100x64.size a
  inb_S1x5x100x50_S1x1x100x50_0_4_0_0 : ∀ a, (![0, 4, 0, 0] : Fin 4 → Nat) a + S1x1x100x50.size a ≤ S1x5x100x50.size a
  inb_S1x50x5x100x64_S1x50x1x100x64_0_0_4_0_0 : ∀ a, (![0, 0, 4, 0, 0] : Fin 5 → Nat) a + S1x50x1x100x64.size a ≤ S1x50x5x100x64.size a
  inb_S1x100x2_S1x100x2_0_0_0 : ∀ a, (![0, 0, 0] : Fin 3 → Nat) a + S1x100x2.size a ≤ S1x100x2.size a
  h_S1x100x2 : 0 < S1x100x2.numel
  shapeCasts_S1x100x2_S100x2 : S1x100x2.ShapeCasts S100x2
  slices_S100x2_o0_0_S100x1 : S100x2.Slices ![0, 0] S100x1
  slices_S100x2_o0_1_S100x1 : S100x2.Slices ![0, 1] S100x1
  concatenates_S100x64_S100x1_S100x65_d1 : Shape.Concatenates [S100x64, S100x1] S100x65 1
  inb_S1x100x65_S1x100x65_0_0_0 : ∀ a, (![0, 0, 0] : Fin 3 → Nat) a + S1x100x65.size a ≤ S1x100x65.size a
  h_S1x100x65 : 0 < S1x100x65.numel
  shapeCasts_S1x100x65_S100x65 : S1x100x65.ShapeCasts S100x65
  shapeCasts_S100x65_S1x100x65 : S100x65.ShapeCasts S1x100x65
  dot_S8x100x11x50_S8x100x11x50_S8x100x50x50_2_2_3_3_01_01_wf : DotDims.WF S8x100x11x50 S8x100x11x50 S8x100x50x50 [2] [2] [3] [3] [0, 1] [0, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x50x5x100x64.size a ≤ S8x50x50x100x64.size a
  hwx0_0 : ∀ i : grid0.Coords, EltTy.bits .f32 = 32 ∨ (Rect.block (s := S8x50x50x100x64) S1x50x5x100x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x100x50.size a ≤ S8x50x100x50.size a
  hwx0_1 : ∀ i : grid0.Coords, EltTy.bits .f32 = 32 ∨ (Rect.block (s := S8x50x100x50) S1x5x100x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x2.size a ≤ S8x100x2.size a
  hwx0_2 : ∀ i : grid0.Coords, EltTy.bits .f32 = 32 ∨ (Rect.block (s := S8x100x2) S1x100x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x100x65.size a ≤ S8x100x65.size a
  hwx0_3 : ∀ i : grid0.Coords, EltTy.bits .f32 = 32 ∨ (Rect.block (s := S8x100x65) S1x100x65.size (cc0_transform_3 i) (hinb0_3 i)).WholeWords (EltTy.packing .f32)

variable [Facts₀]

def dot_S8x100x11x50_S8x100x11x50_S8x100x50x50_2_2_3_3_01_01 : DotDims S8x100x11x50 S8x100x11x50 S8x100x50x50 where
  lhsContracting := [2]
  rhsContracting := [2]
  lhsNonContracting := [3]
  rhsNonContracting := [3]
  lhsBatch := [0, 1]
  rhsBatch := [0, 1]
  wf := dot_S8x100x11x50_S8x100x11x50_S8x100x50x50_2_2_3_3_01_01_wf

abbrev win0_0 : Pipeline.Window sig grid0 :=
  Pipeline.Window.ofSpec (Memref.whole main_arg0) S1x50x5x100x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x5x100x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x100x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x100x65.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x50x50x100x64 : Shape := ⟨5, ![8, 50, 50, 100, 64]⟩
abbrev S8x100x12 : Shape := ⟨3, ![8, 100, 12]⟩
abbrev S8x100 : Shape := ⟨2, ![8, 100]⟩
abbrev S8x100x11 : Shape := ⟨3, ![8, 100, 11]⟩
abbrev S8 : Shape := ⟨1, ![8]⟩
abbrev S8x1x1 : Shape := ⟨3, ![8, 1, 1]⟩
abbrev S100 : Shape := ⟨1, ![100]⟩
abbrev S1x100x1 : Shape := ⟨3, ![1, 100, 1]⟩
abbrev S_ : Shape := ⟨0, ![]⟩
abbrev S8x100x11x1 : Shape := ⟨4, ![8, 100, 11, 1]⟩
abbrev S8x100x11x4 : Shape := ⟨4, ![8, 100, 11, 4]⟩
abbrev S8x100x11x64 : Shape := ⟨4, ![8, 100, 11, 64]⟩
abbrev S11 : Shape := ⟨1, ![11]⟩
abbrev S1x1x11 : Shape := ⟨3, ![1, 1, 11]⟩
abbrev S8x100x1 : Shape := ⟨3, ![8, 100, 1]⟩
abbrev S8x100x64 : Shape := ⟨3, ![8, 100, 64]⟩
abbrev S8x100x65 : Shape := ⟨3, ![8, 100, 65]⟩

abbrev nBuf : Space → Nat
  | .hbm => 76
  | .vmem => 0
  | .smem => 0
  | _ => 0

abbrev bufTy : (tb : Table) → Fin (tcTables nBuf tb) → BufTy
  | .hbm, ⟨0, _⟩ => ⟨S8x50x50x100x64, .f32⟩
  | .hbm, ⟨1, _⟩ => ⟨S8x100x12, .i32⟩
  | .hbm, ⟨2, _⟩ => ⟨S8x100, .i32⟩
  | .hbm, ⟨3, _⟩ => ⟨S8x100, .f32⟩
  | .hbm, ⟨4, _⟩ => ⟨S8x100x11, .i32⟩
  | .hbm, ⟨5, _⟩ => ⟨S8x100x11, .i32⟩
  | .hbm, ⟨6, _⟩ => ⟨S8, .i32⟩
  | .hbm, ⟨7, _⟩ => ⟨S8x1x1, .i32⟩
  | .hbm, ⟨8, _⟩ => ⟨S100, .i32⟩
  | .hbm, ⟨9, _⟩ => ⟨S1x100x1, .i32⟩
  | .hbm, ⟨10, _⟩ => ⟨S_, .i32⟩
  | .hbm, ⟨11, _⟩ => ⟨S8x1x1, .i32⟩
  | .hbm, ⟨12, _⟩ => ⟨S8x1x1, .i1⟩
  | .hbm, ⟨13, _⟩ => ⟨S_, .i32⟩
  | .hbm, ⟨14, _⟩ => ⟨S8x1x1, .i32⟩
  | .hbm, ⟨15, _⟩ => ⟨S8x1x1, .i32⟩
  | .hbm, ⟨16, _⟩ => ⟨S8x1x1, .i32⟩
  | .hbm, ⟨17, _⟩ => ⟨S_, .i32⟩
  | .hbm, ⟨18, _⟩ => ⟨S8x100x11, .i32⟩
  | .hbm, ⟨19, _⟩ => ⟨S8x100x11, .i1⟩
  | .hbm, ⟨20, _⟩ => ⟨S_, .i32⟩
  | .hbm, ⟨21, _⟩ => ⟨S8x100x11, .i32⟩
  | .hbm, ⟨22, _⟩ => ⟨S8x100x11, .i32⟩
  | .hbm, ⟨23, _⟩ => ⟨S8x100x11, .i32⟩
  | .hbm, ⟨24, _⟩ => ⟨S_, .i32⟩
  | .hbm, ⟨25, _⟩ => ⟨S8x100x11, .i32⟩
  | .hbm, ⟨26, _⟩ => ⟨S8x100x11, .i1⟩
  | .hbm, ⟨27, _⟩ => ⟨S_, .i32⟩
  | .hbm, ⟨28, _⟩ => ⟨S8x100x11, .i32⟩
  | .hbm, ⟨29, _⟩ => ⟨S8x100x11, .i32⟩
  | .hbm, ⟨30, _⟩ => ⟨S8x100x11, .i32⟩
  | .hbm, ⟨31, _⟩ => ⟨S_, .i32⟩
  | .hbm, ⟨32, _⟩ => ⟨S1x100x1, .i32⟩
  | .hbm, ⟨33, _⟩ => ⟨S1x100x1, .i1⟩
  | .hbm, ⟨34, _⟩ => ⟨S_, .i32⟩
  | .hbm, ⟨35, _⟩ => ⟨S1x100x1, .i32⟩
  | .hbm, ⟨36, _⟩ => ⟨S1x100x1, .i32⟩
  | .hbm, ⟨37, _⟩ => ⟨S1x100x1, .i32⟩
  | .hbm, ⟨38, _⟩ => ⟨S8x100x11, .i32⟩
  | .hbm, ⟨39, _⟩ => ⟨S8x100x11, .i32⟩
  | .hbm, ⟨40, _⟩ => ⟨S8x100x11x1, .i32⟩
  | .hbm, ⟨41, _⟩ => ⟨S8x100x11x1, .i32⟩
  | .hbm, ⟨42, _⟩ => ⟨S8x100x11x1, .i32⟩
  | .hbm, ⟨43, _⟩ => ⟨S8x100x11x1, .i32⟩
  | .hbm, ⟨44, _⟩ => ⟨S8x100x11x4, .i32⟩
  | .hbm, ⟨45, _⟩ => ⟨S8x100x11x64, .f32⟩
  | .hbm, ⟨46, _⟩ => ⟨S_, .i32⟩
  | .hbm, ⟨47, _⟩ => ⟨S8x100, .i32⟩
  | .hbm, ⟨48, _⟩ => ⟨S8x100, .i32⟩
  | .hbm, ⟨49, _⟩ => ⟨S_, .i32⟩
  | .hbm, ⟨50, _⟩ => ⟨S8x100, .i32⟩
  | .hbm, ⟨51, _⟩ => ⟨S8x100, .i32⟩
  | .hbm, ⟨52, _⟩ => ⟨S11, .i32⟩
  | .hbm, ⟨53, _⟩ => ⟨S1x1x11, .i32⟩
  | .hbm, ⟨54, _⟩ => ⟨S8x100x1, .i32⟩
  | .hbm, ⟨55, _⟩ => ⟨S8x100x11, .i32⟩
  | .hbm, ⟨56, _⟩ => ⟨S8x100x11, .i32⟩
  | .hbm, ⟨57, _⟩ => ⟨S8x100x11, .i1⟩
  | .hbm, ⟨58, _⟩ => ⟨S8x100x11, .f32⟩
  | .hbm, ⟨59, _⟩ => ⟨S8x100x11x1, .f32⟩
  | .hbm, ⟨60, _⟩ => ⟨S8x100x11x64, .f32⟩
  | .hbm, ⟨61, _⟩ => ⟨S8x100x11x64, .f32⟩
  | .hbm, ⟨62, _⟩ => ⟨S_, .f32⟩
  | .hbm, ⟨63, _⟩ => ⟨S8x100x64, .f32⟩
  | .hbm, ⟨64, _⟩ => ⟨S_, .i32⟩
  | .hbm, ⟨65, _⟩ => ⟨S8x100, .i32⟩
  | .hbm, ⟨66, _⟩ => ⟨S8x100, .i32⟩
  | .hbm, ⟨67, _⟩ => ⟨S8x100, .f32⟩
  | .hbm, ⟨68, _⟩ => ⟨S8x100x1, .f32⟩
  | .hbm, ⟨69, _⟩ => ⟨S8x100x64, .f32⟩
  | .hbm, ⟨70, _⟩ => ⟨S8x100x64, .f32⟩
  | .hbm, ⟨71, _⟩ => ⟨S_, .f32⟩
  | .hbm, ⟨72, _⟩ => ⟨S8x100, .f32⟩
  | .hbm, ⟨73, _⟩ => ⟨S8x100, .f32⟩
  | .hbm, ⟨74, _⟩ => ⟨S8x100x1, .f32⟩
  | .hbm, ⟨75, _⟩ => ⟨S8x100x65, .f32⟩
  | _, _ => ⟨S8x50x50x100x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]

class Facts₀ : Prop where
  slices_S8x100x12_S8x100x11_0_0_0 : S8x100x12.Slices ![0, 0, 0] S8x100x11
  slices_S8x100x12_S8x100x11_0_0_1 : S8x100x12.Slices ![0, 0, 1] S8x100x11
  bcast_S8_S8x1x1_0 : S8.BroadcastsInDim S8x1x1 (![0] : Fin 1 → Fin S8x1x1.rank)
  bcast_S100_S1x100x1_1 : S100.BroadcastsInDim S1x100x1 (![1] : Fin 1 → Fin S1x100x1.rank)
  bcast_S_S8x1x1 : S_.BroadcastsInDim S8x1x1 (![] : Fin 0 → Fin S8x1x1.rank)
  bcast_S_S8x100x11 : S_.BroadcastsInDim S8x100x11 (![] : Fin 0 → Fin S8x100x11.rank)
  bcast_S_S1x100x1 : S_.BroadcastsInDim S1x100x1 (![] : Fin 0 → Fin S1x100x1.rank)
  bcast_S8x1x1_S8x100x11_0_1_2 : S8x1x1.BroadcastsInDim S8x100x11 (![0, 1, 2] : Fin 3 → Fin S8x100x11.rank)
  bcast_S1x100x1_S8x100x11_0_1_2 : S1x100x1.BroadcastsInDim S8x100x11 (![0, 1, 2] : Fin 3 → Fin S8x100x11.rank)
  bcast_S8x100x11_S8x100x11x1_0_1_2 : S8x100x11.BroadcastsInDim S8x100x11x1 (![0, 1, 2] : Fin 3 → Fin S8x100x11x1.rank)
  concatenates_S8x100x11x1_S8x100x11x1_S8x100x11x1_S8x100x11x1_S8x100x11x4_d3 : Shape.Concatenates [S8x100x11x1, S8x100x11x1, S8x100x11x1, S8x100x11x1] S8x100x11x4 3
  bcast_S_S8x100 : S_.BroadcastsInDim S8x100 (![] : Fin 0 → Fin S8x100.rank)
  bcast_S11_S1x1x11_2 : S11.BroadcastsInDim S1x1x11 (![2] : Fin 1 → Fin S1x1x11.rank)
  bcast_S8x100_S8x100x1_0_1 : S8x100.BroadcastsInDim S8x100x1 (![0, 1] : Fin 2 → Fin S8x100x1.rank)
  bcast_S1x1x11_S8x100x11_0_1_2 : S1x1x11.BroadcastsInDim S8x100x11 (![0, 1, 2] : Fin 3 → Fin S8x100x11.rank)
  bcast_S8x100x1_S8x100x11_0_1_2 : S8x100x1.BroadcastsInDim S8x100x11 (![0, 1, 2] : Fin 3 → Fin S8x100x11.rank)
  bcast_S8x100x11x1_S8x100x11x64_0_1_2_3 : S8x100x11x1.BroadcastsInDim S8x100x11x64 (![0, 1, 2, 3] : Fin 4 → Fin S8x100x11x64.rank)
  reducesTo_S8x100x11x64_S8x100x64_d2 : S8x100x11x64.ReducesTo [2] S8x100x64
  h_S_ : 0 < S_.numel
  bcast_S8x100x1_S8x100x64_0_1_2 : S8x100x1.BroadcastsInDim S8x100x64 (![0, 1, 2] : Fin 3 → Fin S8x100x64.rank)
  concatenates_S8x100x64_S8x100x1_S8x100x65_d2 : Shape.Concatenates [S8x100x64, S8x100x1] S8x100x65 2
  gather_S8x50x50x100x64_S8x100x11x4_S8x100x11x64_3_0123_n_n_0123_3_111164_wf : GatherDims.WF S8x50x50x100x64 S8x100x11x4 S8x100x11x64 [3] [0, 1, 2, 3] [] [0, 1, 2, 3] [] 3 ![1, 1, 1, 1, 64]

variable [Facts₀]

def gather_S8x50x50x100x64_S8x100x11x4_S8x100x11x64_3_0123_n_n_0123_3_111164 : GatherDims S8x50x50x100x64 S8x100x11x4 S8x100x11x64 where
  offsetDims := [3]
  collapsedSliceDims := [0, 1, 2, 3]
  operandBatchingDims := []
  startIndicesBatchingDims := []
  startIndexMap := [0, 1, 2, 3]
  indexVectorDim := 3
  sliceSizes := ![1, 1, 1, 1, 64]
  wf := gather_S8x50x50x100x64_S8x100x11x4_S8x100x11x64_3_0123_n_n_0123_3_111164_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# The mean of a path's edge features: both programs' result as one function

For a batch entry and a commodity, a path is twelve node words and a length word. Its edges are the
consecutive node pairs `(node l, node (l+1))`, `l < 11`; edge `l` counts when `l < max (len - 1) 0`.
The result row holds, for each of 64 features, the sum of the counted edges' features divided by
`max (number of counted edges) 1`, and in its last place the demand divided by 500.

One program selects the edges with a dense weight `sel v u` (how many counted edges go from `u` to `v`)
and sums `sel v u * e u v` over all node pairs; the other gathers `e (node l) (node (l+1))` edge by edge.
For node words in `[0, 50)` and finite features the two sums agree.
-/

noncomputable section

open Idealize.ShloMosaic Idealize.ShloMosaic.ValueIdx
open scoped BigOperators

namespace Cert.PathMean

/-- The number of edges of a path of `len` nodes, as a word: `max (len - 1) 0` (signed). -/
def nEdges (len : BitVec 32) : BitVec 32 := IntOp.maxsi (IntOp.subi len 1#32) 0#32

/-- Edge `l` is counted: `1` when `l < nEdges len` (signed), else `0`. -/
def maskE (len : BitVec 32) (l : Fin 11) : EReal :=
  FloatOps.uitofp (F := Ideal) .f32 (IntOp.cmpi .slt (BitVec.ofNat 32 l.val) (nEdges len))

/-- The divisor: `max (nEdges len) 1` as a number. -/
def cntE (len : BitVec 32) : EReal :=
  FloatOps.sitofp (F := Ideal) .f32 (IntOp.maxsi (nEdges len) 1#32)

/-- The one-hot entry: `1` when the node word `w` is the node `u`, else `0`. -/
def ohE (w : BitVec 32) (u : Fin 50) : EReal :=
  FloatOps.uitofp (F := Ideal) .f32 (IntOp.cmpi .eq w (BitVec.ofNat 32 u.val))

/-- The normalised demand: the demand over 500. -/
def dnE (d : EReal) : EReal := Ideal.div d (Ideal.ofBits .f32 0x43FA0000#32)

/-- The node a node word names (total: a word outside `[0, 50)` is reduced mod 50; never used there). -/
def nodeIx (w : BitVec 32) : Fin 50 := ⟨w.toNat % 50, Nat.mod_lt _ (by decide)⟩

/-- The dense selector weight: the number of counted edges from `u` to `v`. -/
def selE (nodes : Fin 12 → BitVec 32) (len : BitVec 32) (v u : Fin 50) : EReal :=
  ∑ l : Fin 11, ohE (nodes l.castSucc) u * (ohE (nodes l.succ) v * maskE len l)

/-- The selecting program's row: the weighted sum over all node pairs, divided by the count; last place the demand. -/
def denseVal (e : Fin 50 → Fin 50 → Fin 64 → EReal) (nodes : Fin 12 → BitVec 32) (len : BitVec 32) (d : EReal)
    (k : Fin 65) : EReal :=
  if h : k.val < 64 then Ideal.div (∑ v : Fin 50, ∑ u : Fin 50, selE nodes len v u * e u v ⟨k.val, h⟩) (cntE len)
  else dnE d

/-- The gathering program's row: the counted edges' features summed edge by edge, divided by the count. -/
def gatherVal (e : Fin 50 → Fin 50 → Fin 64 → EReal) (nodes : Fin 12 → BitVec 32) (len : BitVec 32) (d : EReal)
    (k : Fin 65) : EReal :=
  if h : k.val < 64 then
    Ideal.div (∑ l : Fin 11, e (nodeIx (nodes l.castSucc)) (nodeIx (nodes l.succ)) ⟨k.val, h⟩ * maskE len l) (cntE len)
  else dnE d

abbrev EdgeArr := (⟨5, ![8, 50, 50, 100, 64]⟩ : Shape).Idx → EReal
abbrev NodeArr := (⟨3, ![8, 100, 12]⟩ : Shape).Idx → BitVec 32
abbrev LenArr := (⟨2, ![8, 100]⟩ : Shape).Idx → BitVec 32
abbrev DemArr := (⟨2, ![8, 100]⟩ : Shape).Idx → EReal
abbrev OutArr := (⟨3, ![8, 100, 65]⟩ : Shape).Idx → EReal
abbrev SelArr := (⟨4, ![8, 50, 100, 50]⟩ : Shape).Idx → EReal
abbrev AuxArr := (⟨3, ![8, 100, 2]⟩ : Shape).Idx → EReal

def denseAt (x0 : EdgeArr) (x1 : NodeArr) (x2 : LenArr) (x3 : DemArr) (b : Fin 8) (p : Fin 100) (k : Fin 65) : EReal :=
  denseVal (fun u v q => x0 (ix5 b u v p q)) (fun l => x1 (ix3 b p l)) (x2 (ix2 b p)) (x3 (ix2 b p)) k

def gatherAt (x0 : EdgeArr) (x1 : NodeArr) (x2 : LenArr) (x3 : DemArr) (b : Fin 8) (p : Fin 100) (k : Fin 65) : EReal :=
  gatherVal (fun u v q => x0 (ix5 b u v p q)) (fun l => x1 (ix3 b p l)) (x2 (ix2 b p)) (x3 (ix2 b p)) k

/-- The selecting program's whole result array. -/
def denseArr (x0 : EdgeArr) (x1 : NodeArr) (x2 : LenArr) (x3 : DemArr) : OutArr :=
  fun j => denseAt x0 x1 x2 x3 (j 0) (j 1) (j 2)

/-- The gathering program's whole result array. -/
def gatherArr (x0 : EdgeArr) (x1 : NodeArr) (x2 : LenArr) (x3 : DemArr) : OutArr :=
  fun j => gatherAt x0 x1 x2 x3 (j 0) (j 1) (j 2)

/-- What the accumulating region leaves in the result array, over the selector array `sel` and the
    two-column array `aux` (count, normalised demand) it is handed. -/
def accAt (e : EdgeArr) (sel : SelArr) (aux : AuxArr) (b : Fin 8) (p : Fin 100) (k : Fin 65) : EReal :=
  if h : k.val < 64 then
    Ideal.div (∑ v : Fin 50, ∑ u : Fin 50, sel (ix4 b v p u) * e (ix5 b u v p ⟨k.val, h⟩)) (aux (ix3 b p 0))
  else aux (ix3 b p 1)

def accArr (e : EdgeArr) (sel : SelArr) (aux : AuxArr) : OutArr :=
  fun j => accAt e sel aux (j 0) (j 1) (j 2)

/-- Every feature is a real number. -/
def FiniteArr (x0 : EdgeArr) : Prop := ∀ i, ∃ r : ℝ, x0 i = (r : EReal)

/-- Every node word names a node: as an unsigned number it is below 50. -/
def NodesInRange (x1 : NodeArr) : Prop := ∀ i, (x1 i).toNat < 50

/-- A one-bit word as a number is 1 when the bit is set and 0 otherwise. -/
private theorem uitofp_ofBool (b : Bool) :
    FloatOps.uitofp (F := Ideal) .f32 (BitVec.ofBool b) = if b then (1 : EReal) else 0 := by
  cases b
  · show (((BitVec.ofBool false).toNat : ℝ) : EReal) = 0
    simp
  · show (((BitVec.ofBool true).toNat : ℝ) : EReal) = 1
    simp

/-- A node word in range equals the word of a node exactly when it names that node. -/
private theorem word_eq_iff (w : BitVec 32) (hw : w.toNat < 50) (u : Fin 50) :
    w = BitVec.ofNat 32 u.val ↔ nodeIx w = u := by
  have hu : u.val < 50 := u.isLt
  constructor
  · intro h
    apply Fin.ext
    show w.toNat % 50 = u.val
    have : w.toNat = u.val % 2 ^ 32 := by rw [h, BitVec.toNat_ofNat]
    omega
  · intro h
    have h' : w.toNat % 50 = u.val := congrArg Fin.val h
    apply BitVec.eq_of_toNat_eq
    rw [BitVec.toNat_ofNat]
    omega

/-- For a node word in range, the one-hot entry is the indicator of the node it names. -/
theorem ohE_eq (w : BitVec 32) (hw : w.toNat < 50) (u : Fin 50) :
    ohE w u = if nodeIx w = u then 1 else 0 := by
  unfold ohE IntOp.cmpi
  rw [uitofp_ofBool]
  by_cases h : nodeIx w = u
  · rw [if_pos h, if_pos]
    exact beq_iff_eq.mpr ((word_eq_iff w hw u).mpr h)
  · rw [if_neg h, if_neg]
    intro hb
    exact h ((word_eq_iff w hw u).mp (beq_iff_eq.mp hb))

/-- A counted-edge flag is 0 or 1. -/
theorem maskE_zero_or_one (len : BitVec 32) (l : Fin 11) : maskE len l = 0 ∨ maskE len l = 1 := by
  show FloatOps.uitofp (F := Ideal) .f32 (BitVec.ofBool ((BitVec.ofNat 32 l.val).slt (nEdges len))) = 0
    ∨ FloatOps.uitofp (F := Ideal) .f32 (BitVec.ofBool ((BitVec.ofNat 32 l.val).slt (nEdges len))) = 1
  rw [uitofp_ofBool]
  cases (BitVec.ofNat 32 l.val).slt (nEdges len)
  · exact Or.inl (if_neg Bool.false_ne_true)
  · exact Or.inr (if_pos rfl)

/-- The inclusion of the reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem coe_ite_one_zero (c : Prop) [Decidable c] :
    (((if c then (1 : ℝ) else 0 : ℝ)) : EReal) = if c then (1 : EReal) else 0 := by
  split
  · exact EReal.coe_one
  · exact EReal.coe_zero

/-- The contraction over the reals: exchange the sums, then each indicator sum has one surviving term. -/
private theorem contract_real (r : Fin 50 → Fin 50 → ℝ) (un vn : Fin 11 → Fin 50) (m : Fin 11 → ℝ) :
    (∑ v : Fin 50, ∑ u : Fin 50,
        (∑ l : Fin 11, (if un l = u then (1 : ℝ) else 0) * ((if vn l = v then (1 : ℝ) else 0) * m l)) * r u v)
      = ∑ l : Fin 11, r (un l) (vn l) * m l := by
  simp_rw [Finset.sum_mul]
  have h1 : ∀ v : Fin 50,
      (∑ u : Fin 50, ∑ l : Fin 11,
        (if un l = u then (1 : ℝ) else 0) * ((if vn l = v then (1 : ℝ) else 0) * m l) * r u v)
        = ∑ l : Fin 11, ∑ u : Fin 50,
        (if un l = u then (1 : ℝ) else 0) * ((if vn l = v then (1 : ℝ) else 0) * m l) * r u v :=
    fun v => Finset.sum_comm
  simp_rw [h1]
  rw [Finset.sum_comm]
  apply Finset.sum_congr rfl
  intro l _
  simp only [ite_mul, one_mul, zero_mul, Finset.sum_ite_eq, Finset.mem_univ, if_true]
  ring

/-- THE CONTRACTION. Summing real features against the indicator weights over all node pairs picks out, edge by
    edge, the feature of the edge's own pair. -/
theorem contract (e : Fin 50 → Fin 50 → EReal) (he : ∀ u v, ∃ r : ℝ, e u v = (r : EReal)) (un vn : Fin 11 → Fin 50)
    (mk : Fin 11 → EReal) (hm : ∀ l, mk l = 0 ∨ mk l = 1) :
    (∑ v : Fin 50, ∑ u : Fin 50,
        (∑ l : Fin 11, (if un l = u then (1 : EReal) else 0) * ((if vn l = v then (1 : EReal) else 0) * mk l)) * e u v)
      = ∑ l : Fin 11, e (un l) (vn l) * mk l := by
  choose r hr using he
  have hm' : ∀ l, ∃ m : ℝ, mk l = (m : EReal) := fun l =>
    (hm l).elim (fun h => ⟨0, by rw [h, EReal.coe_zero]⟩) (fun h => ⟨1, by rw [h, EReal.coe_one]⟩)
  choose m hmr using hm'
  have hL : ∀ v u : Fin 50,
      (∑ l : Fin 11, (if un l = u then (1 : EReal) else 0) * ((if vn l = v then (1 : EReal) else 0) * mk l)) * e u v
        = ((((∑ l : Fin 11, (if un l = u then (1 : ℝ) else 0) * ((if vn l = v then (1 : ℝ) else 0) * m l)) * r u v : ℝ)) : EReal) := by
    intro v u
    rw [EReal.coe_mul, coe_sum, hr u v]
    congr 1
    apply Finset.sum_congr rfl
    intro l _
    rw [EReal.coe_mul, EReal.coe_mul, hmr l, coe_ite_one_zero, coe_ite_one_zero]
  have hR : ∀ l : Fin 11, e (un l) (vn l) * mk l = ((r (un l) (vn l) * m l : ℝ) : EReal) := by
    intro l
    rw [EReal.coe_mul, hr, hmr]
  simp only [hL, hR, ← coe_sum]
  rw [contract_real]

/-- The two rows agree for nodes in range and finite features. -/
theorem denseVal_eq_gatherVal (e : Fin 50 → Fin 50 → Fin 64 → EReal) (he : ∀ u v q, ∃ r : ℝ, e u v q = (r : EReal))
    (nodes : Fin 12 → BitVec 32) (hn : ∀ l, (nodes l).toNat < 50) (len : BitVec 32) (d : EReal) (k : Fin 65) :
    denseVal e nodes len d k = gatherVal e nodes len d k := by
  unfold denseVal gatherVal
  split
  · rename_i h
    congr 1
    simp only [selE, ohE_eq _ (hn _)]
    exact contract (fun u v => e u v ⟨k.val, h⟩) (fun u v => he u v _) (fun l => nodeIx (nodes l.castSucc))
      (fun l => nodeIx (nodes l.succ)) (maskE len) (maskE_zero_or_one len)
  · rfl

/-- The two programs' result arrays agree for nodes in range and finite features. -/
theorem denseArr_eq_gatherArr (x0 : EdgeArr) (x1 : NodeArr) (x2 : LenArr) (x3 : DemArr)
    (h0 : FiniteArr x0) (h1 : NodesInRange x1) : denseArr x0 x1 x2 x3 = gatherArr x0 x1 x2 x3 := by
  funext j
  exact denseVal_eq_gatherVal _ (fun u v q => h0 _) _ (fun l => h1 _) _ _ _

end Cert.PathMean

end
-- ==== Proof.Finish.lean ====
import proofs.«422074_j46059229282881_3_alg».proof.Proof.Gen.KernelIdeal.Skeleton
import Idealize.ShloMosaic.Lib.ValueIdx
import Idealize.ShloMosaic.Lib.ValueLayout
import Idealize.ShloMosaic.Lib.Pipeline.Value

/-!
# The last step of a run, read at an index

The finished row block is the running sum divided, commodity by commodity, by column 0 of the two-column
block, with column 1 appended as the 65th place.
-/

noncomputable section

open Idealize.ShloMosaic Idealize.ShloMosaic.ValueIdx

namespace Cert.KernelIdeal.Finish

open Cert.KernelIdeal Cert.KernelIdeal.Gen

/-- The finishing arithmetic at commodity `p`, place `k`: the sum over the count in the first 64 places,
    the second column in the last. -/
theorem finish_apply (x2 : Vec Ideal S1x100x2 .f32) (acc : Vec Ideal S100x64 .f32) (p : Fin 100) (k : Fin 65) :
    k0_pay2 (F := Ideal) x2 acc (ix3 0 p k)
      = if h : k.val < 64 then Ideal.div (acc (ix2 p ⟨k.val, h⟩)) (x2 (ix3 0 p 0)) else x2 (ix3 0 p 1) := by
  unfold k0_pay2
  -- the added leading unit axis: place (0, p, k) of the stored block is place (p, k) of the joined rows
  refine (shapeCast_ab_1ab_apply _ _ (0 : Fin 1) p k).trans ?_
  by_cases h : k.val < 64
  · rw [dif_pos h]
    -- a place below 64 falls in the first piece, the quotient
    refine (concatenate_pair_apply_left (t := S100x65) (s₁ := S100x64) (s₂ := S100x1) 1 _ _ _ (ix2 p k) rfl
      (ix2 p ⟨k.val, h⟩) (fun b => match b with | ⟨0, _⟩ => rfl | ⟨1, _⟩ => rfl)).trans ?_
    refine (divf_apply _ _ _).trans ?_
    refine congrArg (Ideal.div (acc (ix2 p ⟨k.val, h⟩))) ?_
    -- the divisor: column 0 spread along the 64 places
    refine (broadcastTo_apply _ _ (ix2 p ⟨k.val, h⟩) (ix2 p (0 : Fin 1))
      (fun a => match a with | ⟨0, _⟩ => rfl | ⟨1, _⟩ => rfl)).trans ?_
    refine (extractStridedSlice_apply _ _ _ (ix2 p (0 : Fin 1)) (ix2 p (0 : Fin 2))
      (fun a => match a with | ⟨0, _⟩ => by show p.val = 0 + p.val; omega | ⟨1, _⟩ => rfl)).trans ?_
    exact shapeCast_1ab_ab_apply _ _ p (0 : Fin 2)
  · rw [dif_neg h]
    have hk : k.val = 64 := by have := k.isLt; omega
    -- place 64 falls in the second piece, column 1
    refine (concatenate_pair_apply_right (t := S100x65) (s₁ := S100x64) (s₂ := S100x1) 1 _ _ _ (ix2 p k) rfl rfl
      (ix2 p (0 : Fin 1))
      (fun b hb => match b, hb with | ⟨0, _⟩, _ => rfl | ⟨1, _⟩, hb => absurd rfl hb)
      (by show 0 + 64 = k.val; omega)).trans ?_
    refine (extractStridedSlice_apply _ _ _ (ix2 p (0 : Fin 1)) (ix2 p (1 : Fin 2))
      (fun a => match a with | ⟨0, _⟩ => by show p.val = 0 + p.val; omega | ⟨1, _⟩ => rfl)).trans ?_
    exact shapeCast_1ab_ab_apply _ _ p (1 : Fin 2)

end Cert.KernelIdeal.Finish

end
-- ==== Proof.Body.lean ====
import proofs.«422074_j46059229282881_3_alg».proof.Proof.Gen.KernelIdeal.Frame
import proofs.«422074_j46059229282881_3_alg».proof.Proof.Finish
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

/-!
# What one grid point's body leaves behind, read at an index

At a grid point the body holds a block of the edge features `x0 (0, u, i, p, q)` (source node `u`, the
point's `i`-th destination node, commodity `p`, feature `q`), the matching block of selector weights
`x1 (0, i, p, u)`, and the two-column block `x2 (0, p, ·)` (count, normalised demand). It adds to the
running sum, for every commodity and feature, the point's contribution
`∑ i, ∑ u, x1 (0, i, p, u) * x0 (0, u, i, p, q)`; the first point of a run starts the sum from zero, and the
last one divides the sum by the count and puts the normalised demand in the last place.

The body computes the contribution as 250 multiply-adds in a row, starting from zero: destination by
destination, and for each destination source by source. Each factor is a layout reading of a loaded slab:
column `u` of the selector slab broadcast along the features, row `u` of the edge chunk. Read at a commodity
and a feature, the chain is `0 + t 0 0 + t 0 1 + … + t 4 49` with `t i u` the product of weight and feature;
the double sum, written over naturals and unrolled from the right, is the same expression.
-/

set_option maxRecDepth 16384

noncomputable section

open Idealize.ShloMosaic Idealize.ShloMosaic.TcCoe Idealize.ShloMosaic.ValueIdx Idealize.ShloMosaic.Tactic
open scoped BigOperators

namespace Cert.KernelIdeal.Body

open Cert.KernelIdeal Cert.KernelIdeal.Gen

/-- One grid point's contribution to the running sum at commodity `p`, feature `q`. -/
def contrib (x0 : Vec Ideal S1x50x5x100x64 .f32) (x1 : Vec Ideal S1x5x100x50 .f32) (p : Fin 100) (q : Fin 64) : EReal :=
  ∑ i : Fin 5, ∑ u : Fin 50, x1 (ix4 0 i p u) * x0 (ix5 0 u i p q)

/-! ### Layout operations of the body read at explicit coordinates -/

section IndexMaps
variable {α : Type}

/-- A column broadcast along the lanes reads the column. -/
private theorem bcast_col (v : S100x1.Idx → α) (h : S100x1.Broadcasts S100x64) (p : Fin 100) (q : Fin 64) :
    broadcastTo S100x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- Column `n` cut out of a `[100, 50]` array. -/
private theorem slice_col (n : ℕ) (v : S100x50.Idx → α) (h : S100x50.Slices ![0, n] S100x1) (p : Fin 100) (z : Fin 1) :
    extractStridedSlice S100x1 ![0, n] v h (ix2 p z)
      = v (ix2 p (⟨n, Nat.lt_of_lt_of_le (Nat.lt_succ_self n) (h.2 1)⟩ : Fin 50)) :=
  slice2_axis1_apply n v h p z _ (by have := z.isLt; show n = n + z.val; omega)

/-- Row `n` cut out of a `[50, 1, 100, 64]` array. -/
private theorem slice_row (n : ℕ) (v : S50x1x100x64.Idx → α) (h : S50x1x100x64.Slices ![n, 0, 0, 0] S1x1x100x64)
    (a b : Fin 1) (p : Fin 100) (q : Fin 64) :
    extractStridedSlice S1x1x100x64 ![n, 0, 0, 0] v h (ix4 a b p q)
      = v (ix4 (⟨n, Nat.lt_of_lt_of_le (Nat.lt_succ_self n) (h.2 0)⟩ : Fin 50) (0 : Fin 1) p q) :=
  extractStridedSlice_apply _ _ _ _ _ (fun ax => by
    match ax with
    | ⟨0, _⟩ => have := a.isLt; show n = n + a.val; omega
    | ⟨1, _⟩ => have := b.isLt; show 0 = 0 + b.val; omega
    | ⟨2, _⟩ => exact (Nat.zero_add _).symm
    | ⟨3, _⟩ => exact (Nat.zero_add _).symm)

/-- Two leading unit axes dropped. -/
private theorem cast_11ab_ab {a b : ℕ} (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 (0 : Fin 1) (0 : Fin 1) i j) :=
  shapeCast_apply v h _ _ (by
    rw [Shape.rowMajor_val_four, Shape.rowMajor_val_two]
    show ((0 * 1 + 0) * a + i.val) * b + j.val = i.val * b + j.val
    simp only [Nat.zero_mul, Nat.zero_add])

/-- A `[1, 1, 100, 64]` row read as a `[100, 64]` tile. -/
private theorem cast_row (v : S1x1x100x64.Idx → α) (h : S1x1x100x64.ShapeCasts S100x64) (p : Fin 100) (q : Fin 64) :
    shapeCast S100x64 v h (ix2 p q) = v (ix4 (0 : Fin 1) (0 : Fin 1) p q) :=
  cast_11ab_ab (a := 100) (b := 64) v h p q

/-- One leading unit axis dropped from a rank-5 array. -/
private theorem cast_1abcd_abcd {a b c d : ℕ} (v : (⟨5, ![1, a, b, c, d]⟩ : Shape).Idx → α)
    (h : (⟨5, ![1, a, b, c, d]⟩ : Shape).ShapeCasts ⟨4, ![a, b, c, d]⟩) (i : Fin a) (j : Fin b) (k : Fin c) (l : Fin d) :
    shapeCast ⟨4, ![a, b, c, d]⟩ v h (ix4 i j k l) = v (ix5 (0 : Fin 1) i j k l) :=
  shapeCast_apply v h _ _ (by
    rw [Shape.rowMajor_val_five, Shape.rowMajor_val_four]
    show (((0 * a + i.val) * b + j.val) * c + k.val) * d + l.val = ((i.val * b + j.val) * c + k.val) * d + l.val
    simp only [Nat.zero_mul, Nat.zero_add])

end IndexMaps

/-! ### The loaded slabs under their first shape cast -/

section Loads
variable {Val : EltTy → Type} {e : EltTy}

/-- The selector slab of destination `i`, its two unit axes dropped, at commodity `p`, source `u`. -/
private theorem sel_slab (x1 : S1x5x100x50.Idx → Val e) (i : ℕ)
    (inb : ∀ a, (![0, i, 0, 0] : Fin 4 → ℕ) a + S1x1x100x50.size a ≤ S1x5x100x50.size a)
    (h : S1x1x100x50.ShapeCasts S100x50) (p : Fin 100) (u : Fin 50) :
    shapeCast S100x50 (View.ld x1 (Rect.unit ![0, i, 0, 0] S1x1x100x50.size inb)) h (ix2 p u)
      = x1 (ix4 (0 : Fin 1) (⟨i, Nat.lt_of_lt_of_le (Nat.lt_succ_self i) (inb 1)⟩ : Fin 5) p u) := by
  refine (cast_11ab_ab (a := 100) (b := 50) _ h p u).trans ?_
  refine congrArg x1 (funext fun ax => Fin.ext ?_)
  match ax with
  | ⟨0, _⟩ => rfl
  | ⟨1, _⟩ => show i + 1 * 0 = i; omega
  | ⟨2, _⟩ => show 0 + 1 * p.val = p.val; omega
  | ⟨3, _⟩ => show 0 + 1 * u.val = u.val; omega

/-- The edge chunk of destination `i`, its leading unit axis dropped, at source `u`, commodity `p`, feature `q`. -/
private theorem edge_chunk (x0 : S1x50x5x100x64.Idx → Val e) (i : ℕ)
    (inb : ∀ a, (![0, 0, i, 0, 0] : Fin 5 → ℕ) a + S1x50x1x100x64.size a ≤ S1x50x5x100x64.size a)
    (h : S1x50x1x100x64.ShapeCasts S50x1x100x64) (u : Fin 50) (z : Fin 1) (p : Fin 100) (q : Fin 64) :
    shapeCast S50x1x100x64 (View.ld x0 (Rect.unit ![0, 0, i, 0, 0] S1x50x1x100x64.size inb)) h (ix4 u z p q)
      = x0 (ix5 (0 : Fin 1) u (⟨i, Nat.lt_of_lt_of_le (Nat.lt_succ_self i) (inb 2)⟩ : Fin 5) p q) := by
  refine (cast_1abcd_abcd (a := 50) (b := 1) (c := 100) (d := 64) _ h u z p q).trans ?_
  refine congrArg x0 (funext fun ax => Fin.ext ?_)
  match ax with
  | ⟨0, _⟩ => rfl
  | ⟨1, _⟩ => show 0 + 1 * u.val = u.val; omega
  | ⟨2, _⟩ => have := z.isLt; show i + 1 * z.val = i; omega
  | ⟨3, _⟩ => show 0 + 1 * p.val = p.val; omega
  | ⟨4, _⟩ => show 0 + 1 * q.val = q.val; omega

end Loads

/-! ### The contribution as a sum over naturals -/

/-- The product of weight and feature for destination `i`, source `n`, as a function of naturals (zero outside the block). -/
private def term (x0 : Vec Ideal S1x50x5x100x64 .f32) (x1 : Vec Ideal S1x5x100x50 .f32) (p : Fin 100) (q : Fin 64) (i n : ℕ) : EReal :=
  if h : i < 5 ∧ n < 50 then x1 (ix4 (0 : Fin 1) (⟨i, h.1⟩ : Fin 5) p (⟨n, h.2⟩ : Fin 50)) * x0 (ix5 (0 : Fin 1) (⟨n, h.2⟩ : Fin 50) (⟨i, h.1⟩ : Fin 5) p q) else 0

private theorem term_eq (x0 : Vec Ideal S1x50x5x100x64 .f32) (x1 : Vec Ideal S1x5x100x50 .f32) (p : Fin 100) (q : Fin 64) (i n : ℕ)
    (hi : i < 5) (hn : n < 50) :
    x1 (ix4 (0 : Fin 1) (⟨i, hi⟩ : Fin 5) p (⟨n, hn⟩ : Fin 50)) * x0 (ix5 (0 : Fin 1) (⟨n, hn⟩ : Fin 50) (⟨i, hi⟩ : Fin 5) p q)
      = term x0 x1 p q i n := by
  unfold term; rw [dif_pos (⟨hi, hn⟩ : i < 5 ∧ n < 50)]

private theorem contrib_eq_range (x0 : Vec Ideal S1x50x5x100x64 .f32) (x1 : Vec Ideal S1x5x100x50 .f32) (p : Fin 100) (q : Fin 64) :
    contrib x0 x1 p q = ∑ i ∈ Finset.range 5, ∑ n ∈ Finset.range 50, term x0 x1 p q i n := by
  unfold contrib
  rw [← Fin.sum_univ_eq_sum_range (fun i => ∑ n ∈ Finset.range 50, term x0 x1 p q i n) 5]
  refine Finset.sum_congr rfl fun i _ => ?_
  rw [← Fin.sum_univ_eq_sum_range (fun n => term x0 x1 p q i.val n) 50]
  refine Finset.sum_congr rfl fun u _ => ?_
  exact term_eq x0 x1 p q i.val u.val i.isLt u.isLt

private theorem add_sum_range_succ (a : EReal) (f : ℕ → EReal) (k : ℕ) :
    a + ∑ n ∈ Finset.range (k + 1), f n = (a + ∑ n ∈ Finset.range k, f n) + f k := by
  rw [Finset.sum_range_succ, add_assoc]

private theorem add_sum_range_zero (a : EReal) (f : ℕ → EReal) : a + ∑ n ∈ Finset.range 0, f n = a := by
  rw [Finset.sum_range_zero, add_zero]

/-- The contribution written out: the 250 products added one after another, from zero. -/

private theorem zero_word : Scalar.ofBits (F := Ideal) .f32 0x00000000#32 = (0 : EReal) := Ideal.ofBits_zero_f32

/-- The zero offsets of a whole rank-2 block. -/
private theorem hz2 : (![0, 0] : Fin 2 → ℕ) = fun _ => 0 := by funext a; match a with | ⟨0, _⟩ => rfl | ⟨1, _⟩ => rfl

/-- The zero offsets of a whole rank-3 block. -/
private theorem hz3 : (![0, 0, 0] : Fin 3 → ℕ) = fun _ => 0 := by
  funext a; match a with | ⟨0, _⟩ => rfl | ⟨1, _⟩ => rfl | ⟨2, _⟩ => rfl

/-- Reads the chain of multiply-adds at the index, writes the contribution as the same 250 additions, and leaves
    the two sides to be compared term by term. -/
local macro "read_chain" : tactic => `(tactic| (
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, addf_apply, mulf_apply, broadcast_apply, shapeCast_self, bcast_col, slice_col, slice_row, cast_row, sel_slab, edge_chunk, zero_word]
  rw [contrib_eq_range, Finset.sum_range_succ, Finset.sum_range_succ, Finset.sum_range_succ, Finset.sum_range_succ, Finset.sum_range_succ, Finset.sum_range_zero]
  simp only [add_sum_range_succ, add_sum_range_zero]))

/-- At the first point of a run the running sum is reset: afterwards it is the point's contribution. -/
theorem sum_first (c : Dev nD) (i : grid0.Coords) (arg2 : Memref sig .tc .vmem S1x50x5x100x64 .f32) (harg2 : arg2.IsWhole) (arg3 : Memref sig .tc .vmem S1x5x100x50 .f32) (harg3 : arg3.IsWhole) (arg4 : Memref sig .tc .vmem S1x100x2 .f32) (harg4 : arg4.IsWhole) (arg5 : Memref sig .tc .vmem S1x100x65 .f32) (harg5 : arg5.IsWhole) (arg6 : Memref sig .tc .vmem S100x64 .f32) (harg6 : arg6.IsWhole) (hc0 : cond0_0 i) (hc1 : ¬cond0_1 i)
    (x0 : Vec Ideal S1x50x5x100x64 .f32) (x1 : Vec Ideal S1x5x100x50 .f32) (x2 : Vec Ideal S1x100x2 .f32) (p : Fin 100) (q : Fin 64) :
    sout0_A_0 (F := Ideal) c i arg2 harg2 arg3 harg3 arg4 harg4 arg5 harg5 arg6 harg6 hc0 hc1 x0 x1 x2 (ix2 p q) = contrib x0 x1 p q := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S100x64) hz2, View.readCov_unit_zero (S := S100x64) _ hz2]
  simp only [View.readAt_eq_ld, harg2.read_unread, harg3.read_unread]
  rw [← zero_add (contrib x0 x1 p q)]
  read_chain
  rfl

/-- At a middle point the running sum grows by the point's contribution. -/
theorem sum_middle (c : Dev nD) (i : grid0.Coords) (arg2 : Memref sig .tc .vmem S1x50x5x100x64 .f32) (harg2 : arg2.IsWhole) (arg3 : Memref sig .tc .vmem S1x5x100x50 .f32) (harg3 : arg3.IsWhole) (arg4 : Memref sig .tc .vmem S1x100x2 .f32) (harg4 : arg4.IsWhole) (arg5 : Memref sig .tc .vmem S1x100x65 .f32) (harg5 : arg5.IsWhole) (arg6 : Memref sig .tc .vmem S100x64 .f32) (harg6 : arg6.IsWhole) (hc0 : ¬cond0_0 i) (hc1 : ¬cond0_1 i)
    (x0 : Vec Ideal S1x50x5x100x64 .f32) (x1 : Vec Ideal S1x5x100x50 .f32) (x2 : Vec Ideal S1x100x2 .f32) (xs0 : Vec Ideal S100x64 .f32) (p : Fin 100) (q : Fin 64) :
    sout0_B_0 (F := Ideal) c i arg2 harg2 arg3 harg3 arg4 harg4 arg5 harg5 arg6 harg6 hc0 hc1 x0 x1 x2 xs0 (ix2 p q) = xs0 (ix2 p q) + contrib x0 x1 p q := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S100x64) hz2]
  simp only [View.readAt_eq_ld, harg2.read_unread, harg3.read_unread, harg6.read_unread, View.ld_unit_zero (S := S100x64) hz2]
  read_chain
  rfl

/-- At the last point of a run the running sum grows by the point's contribution as well. -/
theorem sum_last (c : Dev nD) (i : grid0.Coords) (arg2 : Memref sig .tc .vmem S1x50x5x100x64 .f32) (harg2 : arg2.IsWhole) (arg3 : Memref sig .tc .vmem S1x5x100x50 .f32) (harg3 : arg3.IsWhole) (arg4 : Memref sig .tc .vmem S1x100x2 .f32) (harg4 : arg4.IsWhole) (arg5 : Memref sig .tc .vmem S1x100x65 .f32) (harg5 : arg5.IsWhole) (arg6 : Memref sig .tc .vmem S100x64 .f32) (harg6 : arg6.IsWhole) (hc0 : ¬cond0_0 i) (hc1 : cond0_1 i)
    (x0 : Vec Ideal S1x50x5x100x64 .f32) (x1 : Vec Ideal S1x5x100x50 .f32) (x2 : Vec Ideal S1x100x2 .f32) (xs0 : Vec Ideal S100x64 .f32) (p : Fin 100) (q : Fin 64) :
    sout0_C_0 (F := Ideal) c i arg2 harg2 arg3 harg3 arg4 harg4 arg5 harg5 arg6 harg6 hc0 hc1 x0 x1 x2 xs0 (ix2 p q) = xs0 (ix2 p q) + contrib x0 x1 p q := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S100x64) hz2]
  simp only [View.readAt_eq_ld, harg2.read_unread, harg3.read_unread, harg6.read_unread, View.ld_unit_zero (S := S100x64) hz2]
  read_chain
  rfl

/-- At the last point of a run the output block is the final divide-and-append applied to what the point leaves
    in the running sum. -/
private theorem out_eq_finish (c : Dev nD) (i : grid0.Coords) (arg2 : Memref sig .tc .vmem S1x50x5x100x64 .f32) (harg2 : arg2.IsWhole) (arg3 : Memref sig .tc .vmem S1x5x100x50 .f32) (harg3 : arg3.IsWhole) (arg4 : Memref sig .tc .vmem S1x100x2 .f32) (harg4 : arg4.IsWhole) (arg5 : Memref sig .tc .vmem S1x100x65 .f32) (harg5 : arg5.IsWhole) (arg6 : Memref sig .tc .vmem S100x64 .f32) (harg6 : arg6.IsWhole) (hc0 : ¬cond0_0 i) (hc1 : cond0_1 i)
    (x0 : Vec Ideal S1x50x5x100x64 .f32) (x1 : Vec Ideal S1x5x100x50 .f32) (x2 : Vec Ideal S1x100x2 .f32) (xs0 : Vec Ideal S100x64 .f32) :
    out0_C_3 (F := Ideal) c i arg2 harg2 arg3 harg3 arg4 harg4 arg5 harg5 arg6 harg6 hc0 hc1 x0 x1 x2 xs0
      = k0_pay2 (F := Ideal) x2 (sout0_C_0 (F := Ideal) c i arg2 harg2 arg3 harg3 arg4 harg4 arg5 harg5 arg6 harg6 hc0 hc1 x0 x1 x2 xs0) := by
  unfold out0_C_3 sout0_C_0
  rw [View.read_writes_eq_canon _ _ _ (cover0_C_3 c i arg2 harg2 arg3 harg3 arg4 harg4 arg5 harg5 arg6 harg6 hc0 hc1 x0 x1 x2 xs0),
    View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1x100x65) hz3, View.canon_unit_zero (S := S100x64) hz2,
    View.readCov_unit_zero (S := S100x64) _ hz2]
  simp only [View.readAt_eq_ld, harg4.read_unread, View.ld_unit_zero (S := S1x100x2) hz3]

/-- At the last point of a run the output block is the finished sum over the count (column 0 of `x2`) in the
    first 64 places and the normalised demand (column 1 of `x2`) in the last. -/
theorem out_last (c : Dev nD) (i : grid0.Coords) (arg2 : Memref sig .tc .vmem S1x50x5x100x64 .f32) (harg2 : arg2.IsWhole) (arg3 : Memref sig .tc .vmem S1x5x100x50 .f32) (harg3 : arg3.IsWhole) (arg4 : Memref sig .tc .vmem S1x100x2 .f32) (harg4 : arg4.IsWhole) (arg5 : Memref sig .tc .vmem S1x100x65 .f32) (harg5 : arg5.IsWhole) (arg6 : Memref sig .tc .vmem S100x64 .f32) (harg6 : arg6.IsWhole) (hc0 : ¬cond0_0 i) (hc1 : cond0_1 i)
    (x0 : Vec Ideal S1x50x5x100x64 .f32) (x1 : Vec Ideal S1x5x100x50 .f32) (x2 : Vec Ideal S1x100x2 .f32) (xs0 : Vec Ideal S100x64 .f32) (p : Fin 100) (k : Fin 65) :
    out0_C_3 (F := Ideal) c i arg2 harg2 arg3 harg3 arg4 harg4 arg5 harg5 arg6 harg6 hc0 hc1 x0 x1 x2 xs0 (ix3 0 p k)
      = if h : k.val < 64 then Ideal.div (xs0 (ix2 p ⟨k.val, h⟩) + contrib x0 x1 p ⟨k.val, h⟩) (x2 (ix3 0 p 0))
        else x2 (ix3 0 p 1) := by
  rw [out_eq_finish, Cert.KernelIdeal.Finish.finish_apply]
  by_cases h : k.val < 64
  · rw [dif_pos h, dif_pos h, sum_last]
  · rw [dif_neg h, dif_neg h]

end Cert.KernelIdeal.Body

end
-- ==== Proof.Accum.lean ====
import proofs.«422074_j46059229282881_3_alg».proof.Proof.Gen.KernelIdeal.Value
import proofs.«422074_j46059229282881_3_alg».proof.Proof.Body
import proofs.«422074_j46059229282881_3_alg».proof.Proof.Spec
import Idealize.ShloMosaic.Lib.Pipeline.Value
import Mathlib.Algebra.BigOperators.Fin
import Mathlib.Algebra.BigOperators.Intervals

/-!
# From the grid points to the whole result array

The grid has 8 × 10 points; point `10 b + s` works on batch entry `b` and destination nodes `5 s … 5 s + 4`.
The ten points of a run add their contributions into the running sum, and the run's last point writes the
row block of batch entry `b`. So the result array is, at `(b, p, k)`, the sum over ALL destination and source
nodes of weight times feature, over the count; and the normalised demand in the last place.
-/

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Accum

open Cert.KernelIdeal Cert.KernelIdeal.Gen Cert.KernelIdeal.Value Cert.KernelIdeal.Body Cert.PathMean

variable (m : (ℓ : Loc nD τ sig) → Buf (Elt Ideal) ℓ) (ρ : Dev nD → PrngReg)

/-! ## The arrays the region is handed, and the blocks a point reads of them -/

/-- The edge features as the region finds them. -/
abbrev eArr (c : Dev nD) : EdgeArr := V m c main_arg0
/-- The selector weights as the region finds them. -/
abbrev selArr (c : Dev nD) : SelArr := V m c main_v31
/-- The count and normalised-demand columns as the region finds them. -/
abbrev auxArr (c : Dev nD) : AuxArr := V m c main_v39

/-- The block of edge features point `t` reads. -/
abbrev eBlk (c : Dev nD) (t : Fin cfg0.N) : Vec Ideal S1x50x5x100x64 .f32 := iblk m c 0 t
/-- The block of selector weights point `t` reads. -/
abbrev selBlk (c : Dev nD) (t : Fin cfg0.N) : Vec Ideal S1x5x100x50 .f32 := iblk m c 1 t
/-- The block of the two columns point `t` reads. -/
abbrev auxBlk (c : Dev nD) (t : Fin cfg0.N) : Vec Ideal S1x100x2 .f32 := iblk m c 2 t

/-- The printed index maps over the grid: point `t` is batch entry `t / 10`, tile `t % 10`. -/
theorem idx_facts : ∀ t : Fin cfg0.N,
    win0_0.index t (0 : Fin 5) = t.val / 10 ∧ win0_0.index t (1 : Fin 5) = 0 ∧ win0_0.index t (2 : Fin 5) = t.val % 10
    ∧ win0_0.index t (3 : Fin 5) = 0 ∧ win0_0.index t (4 : Fin 5) = 0
    ∧ win0_1.index t (0 : Fin 4) = t.val / 10 ∧ win0_1.index t (1 : Fin 4) = t.val % 10
    ∧ win0_1.index t (2 : Fin 4) = 0 ∧ win0_1.index t (3 : Fin 4) = 0
    ∧ win0_2.index t (0 : Fin 3) = t.val / 10 ∧ win0_2.index t (1 : Fin 3) = 0 ∧ win0_2.index t (2 : Fin 3) = 0
    ∧ win0_3.index t (0 : Fin 3) = t.val / 10 ∧ win0_3.index t (1 : Fin 3) = 0 ∧ win0_3.index t (2 : Fin 3) = 0 :=
  (by decide +kernel : ∀ t : Fin grid0.N, _)

/-- The edge-feature block of point `t` is batch entry `t / 10`, destination nodes `5 (t % 10) + i`. -/
theorem eBlk_apply (c : Dev nD) (t : Fin cfg0.N) (b : Fin 8) (v : Fin 50) (u : Fin 50) (i : Fin 5) (p : Fin 100) (q : Fin 64)
    (hb : b.val = t.val / 10) (hv : v.val = 5 * (t.val % 10) + i.val) :
    eBlk m c t (ix5 0 u i p q) = eArr m c (ix5 b u v p q) := by
  obtain ⟨e0, e1, e2, e3, e4, -⟩ := idx_facts t
  show V m c main_arg0 (((cfg0.win 0).blk t).view.emb (ix5 0 u i p q)) = V m c main_arg0 (ix5 b u v p q)
  congr 1
  funext a
  apply Fin.ext
  match a with
  | ⟨0, _⟩ => show win0_0.index t (0 : Fin 5) * 1 + 1 * 0 = b.val; omega
  | ⟨1, _⟩ => show win0_0.index t (1 : Fin 5) * 50 + 1 * u.val = u.val; omega
  | ⟨2, _⟩ => show win0_0.index t (2 : Fin 5) * 5 + 1 * i.val = v.val; omega
  | ⟨3, _⟩ => show win0_0.index t (3 : Fin 5) * 100 + 1 * p.val = p.val; omega
  | ⟨4, _⟩ => show win0_0.index t (4 : Fin 5) * 64 + 1 * q.val = q.val; omega

/-- The selector block of point `t` is batch entry `t / 10`, destination nodes `5 (t % 10) + i`. -/
theorem selBlk_apply (c : Dev nD) (t : Fin cfg0.N) (b : Fin 8) (v : Fin 50) (u : Fin 50) (i : Fin 5) (p : Fin 100)
    (hb : b.val = t.val / 10) (hv : v.val = 5 * (t.val % 10) + i.val) :
    selBlk m c t (ix4 0 i p u) = selArr m c (ix4 b v p u) := by
  obtain ⟨-, -, -, -, -, e0, e1, e2, e3, -⟩ := idx_facts t
  show V m c main_v31 (((cfg0.win 1).blk t).view.emb (ix4 0 i p u)) = V m c main_v31 (ix4 b v p u)
  congr 1
  funext a
  apply Fin.ext
  match a with
  | ⟨0, _⟩ => show win0_1.index t (0 : Fin 4) * 1 + 1 * 0 = b.val; omega
  | ⟨1, _⟩ => show win0_1.index t (1 : Fin 4) * 5 + 1 * i.val = v.val; omega
  | ⟨2, _⟩ => show win0_1.index t (2 : Fin 4) * 100 + 1 * p.val = p.val; omega
  | ⟨3, _⟩ => show win0_1.index t (3 : Fin 4) * 50 + 1 * u.val = u.val; omega

/-- The two-column block of point `t` is batch entry `t / 10`. -/
theorem auxBlk_apply (c : Dev nD) (t : Fin cfg0.N) (b : Fin 8) (p : Fin 100) (j : Fin 2)
    (hb : b.val = t.val / 10) :
    auxBlk m c t (ix3 0 p j) = auxArr m c (ix3 b p j) := by
  obtain ⟨-, -, -, -, -, -, -, -, -, e0, e1, e2, -⟩ := idx_facts t
  show V m c main_v39 (((cfg0.win 2).blk t).view.emb (ix3 0 p j)) = V m c main_v39 (ix3 b p j)
  congr 1
  funext a
  apply Fin.ext
  match a with
  | ⟨0, _⟩ => show win0_2.index t (0 : Fin 3) * 1 + 1 * 0 = b.val; omega
  | ⟨1, _⟩ => show win0_2.index t (1 : Fin 3) * 100 + 1 * p.val = p.val; omega
  | ⟨2, _⟩ => show win0_2.index t (2 : Fin 3) * 2 + 1 * j.val = j.val; omega

/-! ## Re-indexing: ten tiles of five destination nodes are the fifty destination nodes -/

/-- A sum over `a` tiles of `b` consecutive places each is the sum over the `a * b` places. -/
theorem sum_tiles {M : Type*} [AddCommMonoid M] (f : ℕ → M) (b : ℕ) :
    ∀ a : ℕ, ∑ s ∈ Finset.range a, ∑ i ∈ Finset.range b, f (b * s + i) = ∑ v ∈ Finset.range (a * b), f v
  | 0 => by simp
  | a + 1 => by
    rw [Finset.sum_range_succ, sum_tiles f b a, Nat.succ_mul, Finset.sum_range_add, Nat.mul_comm b a]

/-- The same with the inner places and the whole range as finite types. -/
theorem sum_tiles_fin {M : Type*} [AddCommMonoid M] (f : ℕ → M) :
    ∑ s ∈ Finset.range 10, ∑ i : Fin 5, f (5 * s + i.val) = ∑ v : Fin 50, f v.val := by
  rw [Fin.sum_univ_eq_sum_range (fun v => f v) 50, ← sum_tiles f 5 10]
  refine Finset.sum_congr rfl fun s _ => ?_
  exact Fin.sum_univ_eq_sum_range (fun i => f (5 * s + i)) 5

/-! ## The running sum: what the scratch holds after a point -/

/-- Point `n`'s contribution to the running sum (zero past the grid, where it is never used). -/
def addend (c : Dev nD) (n : ℕ) (j : S100x64.Idx) : EReal :=
  if h : n < cfg0.N then contrib (eBlk m c ⟨n, h⟩) (selBlk m c ⟨n, h⟩) (j 0) (j 1) else 0

/-- At a run's first point the scratch is reset and then holds the point's contribution. -/
theorem reset_eq (c : Dev nD) (n : ℕ) (hn : n < cfg0.N) (h0 : n % 10 = 0) (acc : Vec Ideal S100x64 .f32) (j : S100x64.Idx) :
    scAt0_0 m c n hn acc j = 0 + addend m c n j := by
  have h1 : ¬n % 10 = 9 := by omega
  obtain ⟨p, q, rfl⟩ : ∃ (p : Fin 100) (q : Fin 64), j = ix2 p q := ⟨j 0, j 1, eq_ix2 j⟩
  unfold scAt0_0 addend
  rw [dif_pos h0, dif_neg h1, dif_pos hn, zero_add]
  exact Body.sum_first c (grid0.coords (⟨n, hn⟩ : Fin cfg0.N)) (ms0_0 (⟨n, hn⟩ : Fin cfg0.N)) (hs0_0 (⟨n, hn⟩ : Fin cfg0.N))
    (ms0_1 (⟨n, hn⟩ : Fin cfg0.N)) (hs0_1 (⟨n, hn⟩ : Fin cfg0.N)) (ms0_2 (⟨n, hn⟩ : Fin cfg0.N)) (hs0_2 (⟨n, hn⟩ : Fin cfg0.N))
    (ms0_3 (⟨n, hn⟩ : Fin cfg0.N)) (hs0_3 (⟨n, hn⟩ : Fin cfg0.N)) scM0_0 (Memref.isWhole_whole _)
    ((hcond0_0 (⟨n, hn⟩ : Fin cfg0.N)).mpr h0) (fun h => h1 ((hcond0_1 (⟨n, hn⟩ : Fin cfg0.N)).mp h))
    (eBlk m c ⟨n, hn⟩) (selBlk m c ⟨n, hn⟩) (auxBlk m c ⟨n, hn⟩) p q

/-- At every later point of the run the scratch grows by the point's contribution. -/
theorem step_eq (c : Dev nD) (n : ℕ) (hn : n < cfg0.N) (h0 : ¬n % 10 = 0) (acc : Vec Ideal S100x64 .f32) (j : S100x64.Idx) :
    scAt0_0 m c n hn acc j = acc j + addend m c n j := by
  obtain ⟨p, q, rfl⟩ : ∃ (p : Fin 100) (q : Fin 64), j = ix2 p q := ⟨j 0, j 1, eq_ix2 j⟩
  unfold scAt0_0 addend
  by_cases h1 : n % 10 = 9
  · rw [dif_neg h0, dif_pos h1, dif_pos hn]
    exact Body.sum_last c (grid0.coords (⟨n, hn⟩ : Fin cfg0.N)) (ms0_0 (⟨n, hn⟩ : Fin cfg0.N)) (hs0_0 (⟨n, hn⟩ : Fin cfg0.N))
      (ms0_1 (⟨n, hn⟩ : Fin cfg0.N)) (hs0_1 (⟨n, hn⟩ : Fin cfg0.N)) (ms0_2 (⟨n, hn⟩ : Fin cfg0.N)) (hs0_2 (⟨n, hn⟩ : Fin cfg0.N))
      (ms0_3 (⟨n, hn⟩ : Fin cfg0.N)) (hs0_3 (⟨n, hn⟩ : Fin cfg0.N)) scM0_0 (Memref.isWhole_whole _)
      (fun h => h0 ((hcond0_0 (⟨n, hn⟩ : Fin cfg0.N)).mp h)) ((hcond0_1 (⟨n, hn⟩ : Fin cfg0.N)).mpr h1)
      (eBlk m c ⟨n, hn⟩) (selBlk m c ⟨n, hn⟩) (auxBlk m c ⟨n, hn⟩) acc p q
  · rw [dif_neg h0, dif_neg h1, dif_pos hn]
    exact Body.sum_middle c (grid0.coords (⟨n, hn⟩ : Fin cfg0.N)) (ms0_0 (⟨n, hn⟩ : Fin cfg0.N)) (hs0_0 (⟨n, hn⟩ : Fin cfg0.N))
      (ms0_1 (⟨n, hn⟩ : Fin cfg0.N)) (hs0_1 (⟨n, hn⟩ : Fin cfg0.N)) (ms0_2 (⟨n, hn⟩ : Fin cfg0.N)) (hs0_2 (⟨n, hn⟩ : Fin cfg0.N))
      (ms0_3 (⟨n, hn⟩ : Fin cfg0.N)) (hs0_3 (⟨n, hn⟩ : Fin cfg0.N)) scM0_0 (Memref.isWhole_whole _)
      (fun h => h0 ((hcond0_0 (⟨n, hn⟩ : Fin cfg0.N)).mp h)) (fun h => h1 ((hcond0_1 (⟨n, hn⟩ : Fin cfg0.N)).mp h))
      (eBlk m c ⟨n, hn⟩) (selBlk m c ⟨n, hn⟩) (auxBlk m c ⟨n, hn⟩) acc p q

/-- After point `n` the scratch holds the contributions of the run's points up to `n`, summed. -/
theorem scratch_eq (c : Dev nD) (n : ℕ) (hn : n < cfg0.N) (j : S100x64.Idx) :
    (outsAt0 m c n hn).2 j = ∑ s ∈ Finset.range (n % 10 + 1), addend m c (10 * (n / 10) + s) j := by
  have hN : cfg0.N = 80 := N_0
  refine (congrFun (soutsAt0_0_eq m c (⟨n, hn⟩ : Fin cfg0.N)) j).trans ?_
  exact (Pipeline.accAt_add_apply (ι := S100x64.Idx) (β := EReal) (N := cfg0.N)
    (fun n h => scAt0_0 m c n h (VS0_0.read (Elt Ideal) VS0_0.junk)) (scAt0_0 m c) (fun _ => 0) (addend m c)
    (10 * (n / 10)) 9 (fun h i => reset_eq m c _ h (by omega) _ i)
    (fun k h acc i h1 h2 => step_eq m c k h (by omega) acc i) (n % 10) (by omega) (by omega) j).trans (zero_add _)

/-! ## A point's contribution, read off the whole arrays -/

/-- The weighted features into destination node `v` (as a natural; zero past the fifty nodes), summed over the
    source nodes: one destination node's share of the result at batch entry `b`, commodity `p`, feature `q`. -/
def rowSum (c : Dev nD) (b : Fin 8) (p : Fin 100) (q : Fin 64) (v : ℕ) : EReal :=
  if h : v < 50 then ∑ u : Fin 50, selArr m c (ix4 b ⟨v, h⟩ p u) * eArr m c (ix5 b u ⟨v, h⟩ p q) else 0

/-- Point `t`'s contribution is the share of its five destination nodes `5 (t % 10) + i`. -/
theorem contrib_eq (c : Dev nD) (t : Fin cfg0.N) (b : Fin 8) (hb : b.val = t.val / 10) (p : Fin 100) (q : Fin 64) :
    contrib (eBlk m c t) (selBlk m c t) p q = ∑ i : Fin 5, rowSum m c b p q (5 * (t.val % 10) + i.val) := by
  unfold contrib
  refine Finset.sum_congr rfl fun i _ => ?_
  have hv : 5 * (t.val % 10) + i.val < 50 := by have := i.isLt; omega
  unfold rowSum
  rw [dif_pos hv]
  refine Finset.sum_congr rfl fun u _ => ?_
  rw [selBlk_apply m c t b ⟨_, hv⟩ u i p hb rfl, eBlk_apply m c t b ⟨_, hv⟩ u i p q hb rfl]

/-- The same for the addend of point `n` of the grid. -/
theorem addend_eq (c : Dev nD) (n : ℕ) (hn : n < cfg0.N) (b : Fin 8) (hb : b.val = n / 10) (p : Fin 100) (q : Fin 64) :
    addend m c n (ix2 p q) = ∑ i : Fin 5, rowSum m c b p q (5 * (n % 10) + i.val) := by
  unfold addend
  rw [dif_pos hn]
  exact contrib_eq m c ⟨n, hn⟩ b hb p q

/-- What the scratch holds after the run's ninth point, with the tenth point's contribution, is the sum over all
    fifty destination nodes and all fifty source nodes. -/
theorem total_eq (c : Dev nD) (t : Fin cfg0.N) (h9 : t.val % 10 = 9) (b : Fin 8) (hb : b.val = t.val / 10) (p : Fin 100) (q : Fin 64) :
    (outsAt0 m c (t.val - 1) (Nat.lt_of_le_of_lt (Nat.sub_le _ _) t.isLt)).2 (ix2 p q) + contrib (eBlk m c t) (selBlk m c t) p q
      = ∑ v : Fin 50, ∑ u : Fin 50, selArr m c (ix4 b v p u) * eArr m c (ix5 b u v p q) := by
  have hN : cfg0.N = 80 := N_0
  have ht := t.isLt
  rw [scratch_eq m c (t.val - 1) _ (ix2 p q), contrib_eq m c t b hb p q, h9,
    show (t.val - 1) % 10 + 1 = 9 from by omega]
  have e1 : ∀ s ∈ Finset.range 9, addend m c (10 * ((t.val - 1) / 10) + s) (ix2 p q)
      = ∑ i : Fin 5, rowSum m c b p q (5 * s + i.val) := fun s hs => by
    have hs' : s < 9 := Finset.mem_range.mp hs
    rw [addend_eq m c _ (by omega) b (by omega) p q, show (10 * ((t.val - 1) / 10) + s) % 10 = s from by omega]
  rw [Finset.sum_congr rfl e1, ← Finset.sum_range_succ (fun s => ∑ i : Fin 5, rowSum m c b p q (5 * s + i.val)) 9,
    sum_tiles_fin (rowSum m c b p q)]
  refine Finset.sum_congr rfl fun v _ => ?_
  unfold rowSum
  rw [dif_pos v.isLt]

/-! ## The block the run's last point writes back -/

/-- The output block of the run's last point, place by place: the accumulated form at batch entry `t / 10`. -/
theorem out_eq (c : Dev nD) (t : Fin cfg0.N) (h0 : ¬t.val % 10 = 0) (h9 : t.val % 10 = 9) (b : Fin 8) (hb : b.val = t.val / 10)
    (p : Fin 100) (k : Fin 65) :
    out0_C_3 (F := Ideal) c (grid0.coords t) (ms0_0 t) (hs0_0 t) (ms0_1 t) (hs0_1 t) (ms0_2 t) (hs0_2 t) (ms0_3 t) (hs0_3 t)
        scM0_0 (Memref.isWhole_whole _) (fun h => h0 ((hcond0_0 t).mp h)) ((hcond0_1 t).mpr h9)
        (eBlk m c t) (selBlk m c t) (auxBlk m c t)
        (outsAt0 m c (t.val - 1) (Nat.lt_of_le_of_lt (Nat.sub_le _ _) t.isLt)).2 (ix3 0 p k)
      = Cert.PathMean.accAt (eArr m c) (selArr m c) (auxArr m c) b p k := by
  refine (Body.out_last c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h9)
    (eBlk m c t) (selBlk m c t) (auxBlk m c t)
    (outsAt0 m c (t.val - 1) (Nat.lt_of_le_of_lt (Nat.sub_le _ _) t.isLt)).2 p k).trans ?_
  unfold Cert.PathMean.accAt
  by_cases h : k.val < 64
  · rw [dif_pos h, dif_pos h, total_eq m c t h9 b hb p ⟨k.val, h⟩, auxBlk_apply m c t b p 0 hb]
  · rw [dif_neg h, dif_neg h, auxBlk_apply m c t b p 1 hb]

/-- Every three-place index is its three coordinates. -/
theorem funext_ix3 {α : Type*} {n0 n1 n2 : ℕ} (f g : (⟨3, ![n0, n1, n2]⟩ : Shape).Idx → α)
    (h : ∀ (a : Fin n0) (p : Fin n1) (k : Fin n2), f (ix3 a p k) = g (ix3 a p k)) : f = g :=
  funext fun j => by rw [eq_ix3 j]; exact h _ _ _

/-- WHAT A WRITING POINT WRITES BACK is its block of the accumulated form. -/
theorem flushed_eq (c : Dev nD) (t : Fin cfg0.N) (hf : (cfg0.win 3).flush t = true) :
    (dats m 0 c).flushed 3 t
      = ((cfg0.win 3).blk t).view.read (Elt Ideal) (accArr (eArr m c) (selArr m c) (auxArr m c)) := by
  have h9 : t.val % 10 = 9 := (flush0_3 t).mp hf
  have h0 : ¬t.val % 10 = 0 := by omega
  have hN : cfg0.N = 80 := N_0
  have ht := t.isLt
  obtain ⟨-, -, -, -, -, -, -, -, -, -, -, -, e0, e1, e2⟩ := idx_facts t
  rw [Value.flushed3_C m c t h0 h9]
  refine funext_ix3 (n0 := 1) (n1 := 100) (n2 := 65) _ _ fun a p k => ?_
  obtain rfl : a = 0 := Subsingleton.elim _ _
  rw [View.read_apply]
  have hemb : ((cfg0.win 3).blk t).view.emb (ix3 0 p k) = (ix3 (⟨t.val / 10, by omega⟩ : Fin 8) p k : S8x100x65.Idx) := by
    funext a
    apply Fin.ext
    match a with
    | ⟨0, _⟩ => show win0_3.index t (0 : Fin 3) * 1 + 1 * 0 = t.val / 10; omega
    | ⟨1, _⟩ => show win0_3.index t (1 : Fin 3) * 100 + 1 * p.val = p.val; omega
    | ⟨2, _⟩ => show win0_3.index t (2 : Fin 3) * 65 + 1 * k.val = k.val; omega
  rw [hemb]
  exact out_eq m c t h0 h9 ⟨t.val / 10, by omega⟩ rfl p k

/-- Every place of the result array is in the block the last point of its batch entry's run writes. -/
theorem covered (i : S8x100x65.Idx) :
    ∃ t : Fin cfg0.N, (cfg0.win 3).flush t = true ∧ i ∈ ((cfg0.win 3).blk t).view.set := by
  have hN : cfg0.N = 80 := N_0
  have hi0 : (i 0).val < 8 := (i 0).isLt
  have hi1 : (i 1).val < 100 := (i 1).isLt
  have hi2 : (i 2).val < 65 := (i 2).isLt
  let t : Fin cfg0.N := ⟨10 * (i 0).val + 9, by omega⟩
  obtain ⟨-, -, -, -, -, -, -, -, -, -, -, -, e0, e1, e2⟩ := idx_facts t
  have tv : t.val = 10 * (i 0).val + 9 := rfl
  refine ⟨t, (flush0_3 t).mpr (by omega), ?_⟩
  show i ∈ ((View.whole main_v40).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 100 ≤ (i 1).val ∧ (i 1).val < win0_3.index t (1 : Fin 3) * 100 + 100; omega
  | ⟨2, _⟩ => show win0_3.index t (2 : Fin 3) * 65 ≤ (i 2).val ∧ (i 2).val < win0_3.index t (2 : Fin 3) * 65 + 65; omega

/-- The result array after the region: the accumulated form over the three arrays the region is handed
    (edge features, selector weights, the count / demand columns). -/
theorem final (c : Dev nD) :
    ((dats m 0 c).arrAt 3 cfg0.N : OutArr)
      = accArr (V m c main_arg0 : EdgeArr) (V m c main_v31 : SelArr) (V m c main_v39 : AuxArr) :=
  (dats m 0 c).arrAt_eq_of_cover 3 (accArr (eArr m c) (selArr m c) (auxArr m c)) (fun t hf => flushed_eq m c t hf) covered

end Cert.KernelIdeal.Accum

end
-- ==== Proof.HostPrefix.lean ====
import proofs.«422074_j46059229282881_3_alg».proof.Proof.Gen.KernelIdeal.Frame
import proofs.«422074_j46059229282881_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

/-!
# The arrays the region is handed, read at an index

Before the region the program builds, from the node words and the lengths, the selector weights
`sel (b, v, p, u) = ∑ l, [node l = u] * ([node (l+1) = v] * counted l)` (a contraction over the eleven edges),
and the two columns `(count, demand / 500)`.
-/

set_option maxRecDepth 16384

noncomputable section

open Idealize.ShloMosaic Idealize.ShloMosaic.TcCoe Idealize.ShloMosaic.ValueIdx Idealize.SL.Sem
open scoped BigOperators

namespace Cert.KernelIdeal.HostPrefix

open Cert.KernelIdeal Cert.KernelIdeal.Gen Cert.PathMean

variable (m : (ℓ : Loc nD τ sig) → Buf (Elt Ideal) ℓ)

/-! ## The two columns -/

/-- A column array read at an index: the broadcast of a matrix along a trailing unit axis reads the matrix. -/
private theorem bcast_col_apply {α : Type} (x : S8x100.Idx → α) (h : S8x100.BroadcastsInDim S8x100x1 ![0, 1])
    (b : Fin 8) (p : Fin 100) (z : Fin 1) :
    broadcastInDim S8x100x1 ![0, 1] h x (ix3 b p z) = x (ix2 b p) := by
  show x _ = x _
  congr 1; funext a
  match a with
  | ⟨0, _⟩ => rfl
  | ⟨1, _⟩ => rfl

set_option maxHeartbeats 4000000 in
/-- Column 0 of the two-column array is the count. -/
theorem aux_count (c : Dev nD) (b : Fin 8) (p : Fin 100) :
    (V m c main_v39 : AuxArr) (ix3 b p 0) = cntE ((m ((c : Thread nD τ).loc main_arg2) : LenArr) (ix2 b p)) := by
  dsimp only [Gen.V, Gen.hostOps0]
  after_results_simp
  -- column 0 lies in the first piece of the concatenation
  refine (concatenate_pair_apply_left (t := S8x100x2) (s₁ := S8x100x1) (s₂ := S8x100x1) 2 _ _ _ (ix3 b p 0) rfl (ix3 b p (0 : Fin 1))
    (fun a => by match a with | ⟨0, _⟩ => rfl | ⟨1, _⟩ => rfl | ⟨2, _⟩ => rfl)).trans ?_
  rw [bcast_col_apply]
  rfl

set_option maxHeartbeats 4000000 in
/-- Column 1 of the two-column array is the normalised demand. -/
theorem aux_demand (c : Dev nD) (b : Fin 8) (p : Fin 100) :
    (V m c main_v39 : AuxArr) (ix3 b p 1) = dnE ((m ((c : Thread nD τ).loc main_arg3) : DemArr) (ix2 b p)) := by
  dsimp only [Gen.V, Gen.hostOps0]
  after_results_simp
  -- column 1 lies in the second piece of the concatenation, at its column 0
  refine (concatenate_pair_apply_right (t := S8x100x2) (s₁ := S8x100x1) (s₂ := S8x100x1) 2 _ _ _ (ix3 b p 1) rfl rfl (ix3 b p (0 : Fin 1))
    (fun a ha => by match a with | ⟨0, _⟩ => rfl | ⟨1, _⟩ => rfl | ⟨2, _⟩ => exact absurd rfl ha) rfl).trans ?_
  rw [bcast_col_apply]
  rfl

/-! ## The selector weights

The weights are a contraction (over the eleven edges) of two one-hot arrays, transposed: the entry `(b, v, p, u)` of the
result reads the contraction at `(b, p, u, v)`, whose left factor is the one-hot of the edge's first node against `u` and
whose right factor is the one-hot of its second node against `v`, times the edge's mask. -/

/-! ### The index maps of the layout operations, read at an index -/

/-- A trailing unit axis broadcast to fifty: the unit axis is read at `0`. -/
private theorem bcast_last_apply {α : Type} (x : S8x100x11x1.Idx → α)
    (h : S8x100x11x1.BroadcastsInDim S8x100x11x50 ![0, 1, 2, 3]) (b : Fin 8) (p : Fin 100) (l : Fin 11) (w : Fin 50) :
    broadcastInDim S8x100x11x50 ![0, 1, 2, 3] h x (ix4 b p l w) = x (ix4 b p l 0) := by
  show x _ = x _
  congr 1; funext a
  match a with
  | ⟨0, _⟩ => rfl
  | ⟨1, _⟩ => rfl
  | ⟨2, _⟩ => rfl
  | ⟨3, _⟩ => rfl

/-- A trailing unit axis added. -/
private theorem bcast_addlast_apply {α : Type} (x : S8x100x11.Idx → α)
    (h : S8x100x11.BroadcastsInDim S8x100x11x1 ![0, 1, 2]) (b : Fin 8) (p : Fin 100) (l : Fin 11) (z : Fin 1) :
    broadcastInDim S8x100x11x1 ![0, 1, 2] h x (ix4 b p l z) = x (ix3 b p l) := by
  show x _ = x _
  congr 1; funext a
  match a with
  | ⟨0, _⟩ => rfl
  | ⟨1, _⟩ => rfl
  | ⟨2, _⟩ => rfl

/-- A row of fifty broadcast over the three leading axes. -/
private theorem bcast_lead_apply {α : Type} (x : S1x1x1x50.Idx → α)
    (h : S1x1x1x50.BroadcastsInDim S8x100x11x50 ![0, 1, 2, 3]) (b : Fin 8) (p : Fin 100) (l : Fin 11) (w : Fin 50) :
    broadcastInDim S8x100x11x50 ![0, 1, 2, 3] h x (ix4 b p l w) = x (ix4 0 0 0 w) := by
  show x _ = x _
  congr 1; funext a
  match a with
  | ⟨0, _⟩ => rfl
  | ⟨1, _⟩ => rfl
  | ⟨2, _⟩ => rfl
  | ⟨3, _⟩ => rfl

/-- A vector of fifty as a row under three unit axes. -/
private theorem bcast_vec50_apply {α : Type} (x : S50.Idx → α)
    (h : S50.BroadcastsInDim S1x1x1x50 ![3]) (z0 z1 z2 : Fin 1) (w : Fin 50) :
    broadcastInDim S1x1x1x50 ![3] h x (ix4 z0 z1 z2 w) = x (ix1 w) := by
  show x _ = x _
  congr 1; funext a
  match a with
  | ⟨0, _⟩ => rfl

/-- A row of eleven broadcast over the two leading axes. -/
private theorem bcast_lead11_apply {α : Type} (x : S1x1x11.Idx → α)
    (h : S1x1x11.BroadcastsInDim S8x100x11 ![0, 1, 2]) (b : Fin 8) (p : Fin 100) (l : Fin 11) :
    broadcastInDim S8x100x11 ![0, 1, 2] h x (ix3 b p l) = x (ix3 0 0 l) := by
  show x _ = x _
  congr 1; funext a
  match a with
  | ⟨0, _⟩ => rfl
  | ⟨1, _⟩ => rfl
  | ⟨2, _⟩ => rfl

/-- A vector of eleven as a row under two unit axes. -/
private theorem bcast_vec11_apply {α : Type} (x : S11.Idx → α)
    (h : S11.BroadcastsInDim S1x1x11 ![2]) (z0 z1 : Fin 1) (l : Fin 11) :
    broadcastInDim S1x1x11 ![2] h x (ix3 z0 z1 l) = x (ix1 l) := by
  show x _ = x _
  congr 1; funext a
  match a with
  | ⟨0, _⟩ => rfl

/-- A column broadcast along the eleven edges. -/
private theorem bcast_col11_apply {α : Type} (x : S8x100x1.Idx → α)
    (h : S8x100x1.BroadcastsInDim S8x100x11 ![0, 1, 2]) (b : Fin 8) (p : Fin 100) (l : Fin 11) :
    broadcastInDim S8x100x11 ![0, 1, 2] h x (ix3 b p l) = x (ix3 b p 0) := by
  show x _ = x _
  congr 1; funext a
  match a with
  | ⟨0, _⟩ => rfl
  | ⟨1, _⟩ => rfl
  | ⟨2, _⟩ => rfl

/-- Eleven consecutive node words from offset `o` (`o + 11 ≤ 12`). -/
private theorem slice_nodes_apply {α : Type} (x : S8x100x12.Idx → α) (o : Nat)
    (h : S8x100x12.Slices ![0, 0, o] S8x100x11) (b : Fin 8) (p : Fin 100) (l : Fin 11) (l' : Fin 12)
    (hl : l'.val = o + l.val) :
    extractStridedSlice S8x100x11 ![0, 0, o] x h (ix3 b p l) = x (ix3 b p l') := by
  show x _ = x _
  congr 1; funext a
  match a with
  | ⟨0, _⟩ => exact Fin.ext (Nat.zero_add _)
  | ⟨1, _⟩ => exact Fin.ext (Nat.zero_add _)
  | ⟨2, _⟩ => exact Fin.ext hl.symm

/-! ### The one-hot and the mask at an index -/

/-- The one-hot array of a block of node words against the fifty nodes. -/
private theorem onehot_apply (X : S8x100x11.Idx → BitVec 32) (b : Fin 8) (p : Fin 100) (l : Fin 11) (w : Fin 50) :
    (uitofp (F := Ideal) .f32 (cmpi .eq
        (broadcastInDim S8x100x11x50 ![0, 1, 2, 3] bcast_S8x100x11x1_S8x100x11x50_0_1_2_3
          (broadcastInDim S8x100x11x1 ![0, 1, 2] bcast_S8x100x11_S8x100x11x1_0_1_2 X))
        (broadcastInDim S8x100x11x50 ![0, 1, 2, 3] bcast_S1x1x1x50_S8x100x11x50_0_1_2_3
          (broadcastInDim S1x1x1x50 ![3] bcast_S50_S1x1x1x50_3 (iotaInDim S50 32 0)))) : S8x100x11x50.Idx → EReal) (ix4 b p l w)
      = FloatOps.uitofp (F := Ideal) .f32 (IntOp.cmpi .eq (X (ix3 b p l)) (BitVec.ofNat 32 w.val)) := by
  show FloatOps.uitofp (F := Ideal) .f32 (IntOp.cmpi .eq (broadcastInDim _ _ _ _ (ix4 b p l w)) (broadcastInDim _ _ _ _ (ix4 b p l w))) = _
  rw [bcast_last_apply, bcast_addlast_apply, bcast_lead_apply, bcast_vec50_apply]
  rfl

/-- The mask array of the counted edges. -/
private theorem mask_apply (L : S8x100.Idx → BitVec 32) (b : Fin 8) (p : Fin 100) (l : Fin 11) (w : Fin 50) :
    (broadcastInDim S8x100x11x50 ![0, 1, 2, 3] bcast_S8x100x11x1_S8x100x11x50_0_1_2_3
      (broadcastInDim S8x100x11x1 ![0, 1, 2] bcast_S8x100x11_S8x100x11x1_0_1_2
        (uitofp (F := Ideal) .f32
          (cmpi .slt
            (broadcastInDim S8x100x11 ![0, 1, 2] bcast_S1x1x11_S8x100x11_0_1_2
              (broadcastInDim S1x1x11 ![2] bcast_S11_S1x1x11_2 (iotaInDim S11 32 0)))
            (broadcastInDim S8x100x11 ![0, 1, 2] bcast_S8x100x1_S8x100x11_0_1_2
              (broadcastInDim S8x100x1 ![0, 1] bcast_S8x100_S8x100x1_0_1
                (maxsi
                  (subi L (broadcastInDim S8x100 ![] bcast_S_S8x100 (constantI S_ 32 1#32)))
                  (broadcastInDim S8x100 ![] bcast_S_S8x100 (constantI S_ 32 0#32)))))))) : S8x100x11x50.Idx → EReal) (ix4 b p l w)
      = maskE (L (ix2 b p)) l := by
  rw [bcast_last_apply, bcast_addlast_apply]
  show FloatOps.uitofp (F := Ideal) .f32 (IntOp.cmpi .slt (broadcastInDim _ _ _ _ (ix3 b p l)) (broadcastInDim _ _ _ _ (ix3 b p l))) = _
  rw [bcast_lead11_apply, bcast_vec11_apply, bcast_col11_apply, bcast_col_apply]
  rfl

/-! ### The contraction's operand indices -/

private theorem lhs_axis0 (j : S8x100x50x50.Idx) (k : dot_S8x100x11x50_S8x100x11x50_S8x100x50x50_2_2_3_3_01_01.contr.Idx) :
    (dot_S8x100x11x50_S8x100x11x50_S8x100x50x50_2_2_3_3_01_01.lhsIdx j k 0).val = (j 0).val := by
  unfold DotDims.lhsIdx
  rw [dif_pos (show (0 : Fin S8x100x11x50.rank) ∈ dot_S8x100x11x50_S8x100x11x50_S8x100x50x50_2_2_3_3_01_01.lhsBatch by decide)]
  rfl

private theorem lhs_axis1 (j : S8x100x50x50.Idx) (k : dot_S8x100x11x50_S8x100x11x50_S8x100x50x50_2_2_3_3_01_01.contr.Idx) :
    (dot_S8x100x11x50_S8x100x11x50_S8x100x50x50_2_2_3_3_01_01.lhsIdx j k 1).val = (j 1).val := by
  unfold DotDims.lhsIdx
  rw [dif_pos (show (1 : Fin S8x100x11x50.rank) ∈ dot_S8x100x11x50_S8x100x11x50_S8x100x50x50_2_2_3_3_01_01.lhsBatch by decide)]
  rfl

private theorem lhs_axis3 (j : S8x100x50x50.Idx) (k : dot_S8x100x11x50_S8x100x11x50_S8x100x50x50_2_2_3_3_01_01.contr.Idx) :
    (dot_S8x100x11x50_S8x100x11x50_S8x100x50x50_2_2_3_3_01_01.lhsIdx j k 3).val = (j 2).val := by
  unfold DotDims.lhsIdx
  rw [dif_neg (show ¬ (3 : Fin S8x100x11x50.rank) ∈ dot_S8x100x11x50_S8x100x11x50_S8x100x50x50_2_2_3_3_01_01.lhsBatch by decide),
    dif_pos (show (3 : Fin S8x100x11x50.rank) ∈ dot_S8x100x11x50_S8x100x11x50_S8x100x50x50_2_2_3_3_01_01.lhsNonContracting by decide)]
  rfl

private theorem rhs_axis0 (j : S8x100x50x50.Idx) (k : dot_S8x100x11x50_S8x100x11x50_S8x100x50x50_2_2_3_3_01_01.contr.Idx) :
    (dot_S8x100x11x50_S8x100x11x50_S8x100x50x50_2_2_3_3_01_01.rhsIdx j k 0).val = (j 0).val := by
  unfold DotDims.rhsIdx
  rw [dif_pos (show (0 : Fin S8x100x11x50.rank) ∈ dot_S8x100x11x50_S8x100x11x50_S8x100x50x50_2_2_3_3_01_01.rhsBatch by decide)]
  rfl

private theorem rhs_axis1 (j : S8x100x50x50.Idx) (k : dot_S8x100x11x50_S8x100x11x50_S8x100x50x50_2_2_3_3_01_01.contr.Idx) :
    (dot_S8x100x11x50_S8x100x11x50_S8x100x50x50_2_2_3_3_01_01.rhsIdx j k 1).val = (j 1).val := by
  unfold DotDims.rhsIdx
  rw [dif_pos (show (1 : Fin S8x100x11x50.rank) ∈ dot_S8x100x11x50_S8x100x11x50_S8x100x50x50_2_2_3_3_01_01.rhsBatch by decide)]
  rfl

private theorem rhs_axis3 (j : S8x100x50x50.Idx) (k : dot_S8x100x11x50_S8x100x11x50_S8x100x50x50_2_2_3_3_01_01.contr.Idx) :
    (dot_S8x100x11x50_S8x100x11x50_S8x100x50x50_2_2_3_3_01_01.rhsIdx j k 3).val = (j 3).val := by
  unfold DotDims.rhsIdx
  rw [dif_neg (show ¬ (3 : Fin S8x100x11x50.rank) ∈ dot_S8x100x11x50_S8x100x11x50_S8x100x50x50_2_2_3_3_01_01.rhsBatch by decide),
    dif_pos (show (3 : Fin S8x100x11x50.rank) ∈ dot_S8x100x11x50_S8x100x11x50_S8x100x50x50_2_2_3_3_01_01.rhsNonContracting by decide)]
  rfl

/-- The left operand's index at result `(b, p, u, v)` and edge `l`. -/
private theorem lhsIdx_eq (b : Fin 8) (p : Fin 100) (u v : Fin 50) (l : Fin 11) :
    dot_S8x100x11x50_S8x100x11x50_S8x100x50x50_2_2_3_3_01_01.lhsIdx (ix4 b p u v)
        ((contrEquiv1 dot_S8x100x11x50_S8x100x11x50_S8x100x50x50_2_2_3_3_01_01 11 rfl rfl).symm l)
      = ix4 b p l u := by
  funext a
  match a with
  | ⟨0, _⟩ => exact Fin.ext (lhs_axis0 _ _)
  | ⟨1, _⟩ => exact Fin.ext (lhs_axis1 _ _)
  | ⟨2, _⟩ =>
    exact Fin.ext ((DotDims.lhsIdx_val_of_single _ rfl _ _).trans
      (contrEquiv1_symm_val dot_S8x100x11x50_S8x100x11x50_S8x100x50x50_2_2_3_3_01_01 11 rfl rfl l))
  | ⟨3, _⟩ => exact Fin.ext (lhs_axis3 _ _)

/-- The right operand's index at result `(b, p, u, v)` and edge `l`. -/
private theorem rhsIdx_eq (b : Fin 8) (p : Fin 100) (u v : Fin 50) (l : Fin 11) :
    dot_S8x100x11x50_S8x100x11x50_S8x100x50x50_2_2_3_3_01_01.rhsIdx (ix4 b p u v)
        ((contrEquiv1 dot_S8x100x11x50_S8x100x11x50_S8x100x50x50_2_2_3_3_01_01 11 rfl rfl).symm l)
      = ix4 b p l v := by
  funext a
  match a with
  | ⟨0, _⟩ => exact Fin.ext (rhs_axis0 _ _)
  | ⟨1, _⟩ => exact Fin.ext (rhs_axis1 _ _)
  | ⟨2, _⟩ =>
    exact Fin.ext ((DotDims.rhsIdx_val_of_single _ rfl _ _).trans
      (contrEquiv1_symm_val dot_S8x100x11x50_S8x100x11x50_S8x100x50x50_2_2_3_3_01_01 11 rfl rfl l))
  | ⟨3, _⟩ => exact Fin.ext (rhs_axis3 _ _)

set_option maxHeartbeats 4000000 in
/-- The selector weights at an index. -/
theorem sel_apply (c : Dev nD) (b : Fin 8) (v : Fin 50) (p : Fin 100) (u : Fin 50) :
    (V m c main_v31 : SelArr) (ix4 b v p u)
      = selE (fun l => (m ((c : Thread nD τ).loc main_arg1) : NodeArr) (ix3 b p l))
          ((m ((c : Thread nD τ).loc main_arg2) : LenArr) (ix2 b p)) v u := by
  dsimp only [Gen.V, Gen.hostOps0]
  after_results_simp
  -- the transpose reads the contraction at (b, p, u, v)
  refine (transpose_apply (s := S8x100x50x50) (t := S8x50x100x50) [0, 3, 1, 2] _ _ (ix4 b v p u) (ix4 b p u v)
    (fun a => by match a with | ⟨0, _⟩ => rfl | ⟨1, _⟩ => rfl | ⟨2, _⟩ => rfl | ⟨3, _⟩ => rfl)).trans ?_
  -- the contraction is a sum over the eleven edges
  simp only [Host.dotGeneral]
  rw [Ideal.dotGeneral_apply,
    ← Equiv.sum_comp (contrEquiv1 dot_S8x100x11x50_S8x100x11x50_S8x100x50x50_2_2_3_3_01_01 11 rfl rfl).symm]
  unfold selE
  refine Finset.sum_congr (M := EReal) rfl fun l _ => ?_
  rw [lhsIdx_eq, rhsIdx_eq, onehot_apply, mulf_apply, onehot_apply, mask_apply,
    slice_nodes_apply _ 0 _ b p l l.castSucc (by simp), slice_nodes_apply _ 1 _ b p l l.succ (by simp; omega)]
  rfl

end Cert.KernelIdeal.HostPrefix

end
-- ==== Proof.KernelRun.lean ====
import proofs.«422074_j46059229282881_3_alg».proof.Proof.Accum
import proofs.«422074_j46059229282881_3_alg».proof.Proof.HostPrefix

/-!
# The selecting program's run, with its result named

After the region the result array is the accumulated form over the arrays the region was handed; those
arrays, read at an index, are the selector weights, the count and the normalised demand of the node words,
lengths and demands the program was launched with. So the result is the dense weighted sum of the inputs.
-/

noncomputable section

open Idealize.ShloMosaic Idealize.ShloMosaic.TcCoe Idealize.ShloMosaic.ValueIdx Idealize.SL.Sem
open scoped BigOperators

namespace Cert.KernelIdeal.KernelRun

open Cert.KernelIdeal Cert.KernelIdeal.Gen Cert.PathMean

variable (m : (ℓ : Loc nD τ sig) → Buf (Elt Ideal) ℓ) (ρ : Dev nD → PrngReg)

/-- The accumulated form over ANY three arrays that read, at an index, as the edge features, the selector
    weights of the node words and lengths, and the count and normalised demand, is the dense weighted sum. -/
theorem acc_eq_dense_of (e : EdgeArr) (sel : SelArr) (aux : AuxArr) (x0 : EdgeArr) (x1 : NodeArr) (x2 : LenArr) (x3 : DemArr)
    (he : e = x0)
    (hs : ∀ (b : Fin 8) (v : Fin 50) (p : Fin 100) (u : Fin 50),
      sel (ix4 b v p u) = selE (fun l => x1 (ix3 b p l)) (x2 (ix2 b p)) v u)
    (hc : ∀ (b : Fin 8) (p : Fin 100), aux (ix3 b p 0) = cntE (x2 (ix2 b p)))
    (hd : ∀ (b : Fin 8) (p : Fin 100), aux (ix3 b p 1) = dnE (x3 (ix2 b p))) :
    accArr e sel aux = denseArr x0 x1 x2 x3 := by
  subst he
  funext j
  have key : ∀ (b : Fin 8) (p : Fin 100) (k : Fin 65), accAt e sel aux b p k = denseAt e x1 x2 x3 b p k := by
    intro b p k
    unfold accAt denseAt denseVal
    rw [hc b p, hd b p]
    by_cases h : k.val < 64
    · rw [dif_pos h, dif_pos h]
      refine congrArg (fun z => Ideal.div z _) ?_
      refine Finset.sum_congr rfl fun v _ => Finset.sum_congr rfl fun u _ => ?_
      rw [hs b v p u]
    · rw [dif_neg h, dif_neg h]
  exact key (j 0) (j 1) (j 2)

/-- The accumulated form over the handed arrays is the dense weighted sum of the launch inputs. -/
theorem acc_eq_dense (c : Dev nD) :
    accArr (V m c main_arg0 : EdgeArr) (V m c main_v31 : SelArr) (V m c main_v39 : AuxArr)
      = denseArr (m ((c : Thread nD τ).loc main_arg0) : EdgeArr) (m ((c : Thread nD τ).loc main_arg1) : NodeArr)
          (m ((c : Thread nD τ).loc main_arg2) : LenArr) (m ((c : Thread nD τ).loc main_arg3) : DemArr) :=
  acc_eq_dense_of (V m c main_arg0) (V m c main_v31) (V m c main_v39)
    (m ((c : Thread nD τ).loc main_arg0)) (m ((c : Thread nD τ).loc main_arg1))
    (m ((c : Thread nD τ).loc main_arg2)) (m ((c : Thread nD τ).loc main_arg3))
    (V_main_arg0 m c) (HostPrefix.sel_apply m c) (HostPrefix.aux_count m c) (HostPrefix.aux_demand m c)

/-- Every weakly fair execution of the selecting program ends with the result array at the dense weighted sum
    of the launch inputs, the inputs unchanged. -/
theorem run : θ_run defs (onTc (τ := τ) (main (F := Ideal))) ⟨m, fun _ => 0, ρ⟩ fun r => ∀ c : Dev nD,
      r.2.mem ((c : Thread nD τ).loc main_v40)
        = denseArr (m ((c : Thread nD τ).loc main_arg0) : EdgeArr) (m ((c : Thread nD τ).loc main_arg1) : NodeArr)
            (m ((c : Thread nD τ).loc main_arg2) : LenArr) (m ((c : Thread nD τ).loc main_arg3) : DemArr)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun r h c => ⟨(h c).1.trans ((Accum.final m c).trans (acc_eq_dense m c)), (h c).2⟩)
    (Cert.KernelIdeal.Value.run_blocks m ρ)

end Cert.KernelIdeal.KernelRun

end
-- ==== Proof.RefValue.lean ====
import proofs.«422074_j46059229282881_3_alg».proof.Proof.Gen.ReferenceIdeal.Read
import proofs.«422074_j46059229282881_3_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The gathering program's result, read at an index

The program gathers, for each batch entry `b`, commodity `p` and edge `l`, the 64 features at
`(b, node l, node (l+1), p, ·)` (a node word below zero is shifted up by 50 and the result clamped into
`[0, 49]`; for a word in `[0, 50)` this is the node the word names), multiplies by the counted-edge flag, sums
over the eleven edges, divides by the count, and appends the demand over 500.

The reading goes stage by stage: the flag and the count at an index; the four columns of the start-index array
(batch number, source node, target node, commodity number), each the piece of the concatenation its column names;
the gather's operand index, coordinate by coordinate, as the start-index columns read signed and clamped; the
clamped columns as the batch, the two nodes and the commodity; then the sum, the quotient and the last column.
-/

set_option maxRecDepth 16384

noncomputable section

open Idealize.ShloMosaic Idealize.ShloMosaic.TcCoe Idealize.ShloMosaic.ValueIdx Idealize.SL.Sem
open scoped BigOperators

namespace Cert.ReferenceIdeal.RefValue

open Cert.ReferenceIdeal Cert.ReferenceIdeal.Gen Cert.ReferenceIdeal.Read Cert.PathMean

/-- The counted-edge flag, broadcast over the features, at an index. -/
theorem mask_apply (x2 : LenArr) (b : Fin 8) (p : Fin 100) (l : Fin 11) (q : Fin 64) :
    Read.val_main_v46 (F := Ideal) x2 (ix4 b p l q) = maskE (x2 (ix2 b p)) l := by
  have e46 : idx_main_v45 (idx_main_v46 (ix4 b p l q)) = ix3 b p l := by
    funext a; match a with | ⟨0, _⟩ => rfl | ⟨1, _⟩ => rfl | ⟨2, _⟩ => rfl
  have e40 : idx_main_v40 (idx_main_v42 (ix3 b p l)) = ix2 b p := by
    funext a; match a with | ⟨0, _⟩ => rfl | ⟨1, _⟩ => rfl
  rw [val_main_v46_apply, val_main_v45_apply, e46, val_main_v44_apply, val_main_v43_apply,
    val_main_v41_apply, val_main_v39_apply, val_main_v38_apply, val_main_v42_apply, val_main_v40_apply, e40,
    val_main_v37_apply, val_main_v35_apply, val_main_v34_apply, val_main_c_7_apply, val_main_v36_apply,
    val_main_c_8_apply]
  rfl

/-- The count, broadcast over the features, at an index. -/
theorem count_apply (x2 : LenArr) (b : Fin 8) (p : Fin 100) (q : Fin 64) :
    Read.val_main_v53 (F := Ideal) x2 (ix3 b p q) = cntE (x2 (ix2 b p)) := by
  have e : idx_main_v52 (idx_main_v53 (ix3 b p q)) = ix2 b p := by
    funext a; match a with | ⟨0, _⟩ => rfl | ⟨1, _⟩ => rfl
  rw [val_main_v53_apply, val_main_v52_apply, e, val_main_v51_apply, val_main_v50_apply, val_main_v37_apply,
    val_main_v35_apply, val_main_v34_apply, val_main_c_7_apply, val_main_v36_apply, val_main_c_8_apply,
    val_main_v49_apply, val_main_c_9_apply]
  rfl

/-- The last column: the demand over 500. -/
theorem last_col (x0 : EdgeArr) (x1 : NodeArr) (x2 : LenArr) (x3 : DemArr) (b : Fin 8) (p : Fin 100) (k : Fin 65)
    (hk : ¬ k.val < 64) :
    Read.val_main_v58 (F := Ideal) x0 x1 x2 x3 (ix3 b p k) = dnE (x3 (ix2 b p)) := by
  have hk64 : k.val = 64 := by have := k.isLt; omega
  unfold Read.val_main_v58
  refine (concatenate_pair_apply_right (t := S8x100x65) (s₁ := S8x100x64) (s₂ := S8x100x1) (2 : Fin 3) _ _ concatenates_S8x100x64_S8x100x1_S8x100x65_d2 (ix3 b p k) rfl rfl
    (ix3 b p (0 : Fin 1)) (fun b' hb => by
      match b' with
      | ⟨0, _⟩ => rfl
      | ⟨1, _⟩ => rfl
      | ⟨2, _⟩ => exact absurd rfl hb) (by show 0 + 64 = k.val; omega)).trans ?_
  have e : idx_main_v57 (ix3 b p (0 : Fin 1)) = ix2 b p := by
    funext a; match a with | ⟨0, _⟩ => rfl | ⟨1, _⟩ => rfl
  rw [val_main_v57_apply, e, val_main_v56_apply, val_main_v55_apply, val_main_cst_10_apply]
  rfl

/-- The gather's dimension numbers: four collapsed axes read off four start-index columns, the fifth axis whole. -/
abbrev GD := gather_S8x50x50x100x64_S8x100x11x4_S8x100x11x64_3_0123_n_n_0123_3_111164

theorem opIdx0 (idx : IVec S8x100x11x4 32) (b : Fin 8) (p : Fin 100) (l : Fin 11) (q : Fin 64) :
    (GD.operandIdx (ix4 b p l q) idx (0 : Fin 5)).val = min (idx (ix4 b p l (0 : Fin 4))).toInt.toNat 7 := by
  show GD.start (ix4 b p l q) idx (0 : Fin 5) + GD.batchCoord (ix4 b p l q) (0 : Fin 5) + GD.offCoord (ix4 b p l q) (0 : Fin 5) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 5) ∈ GD.startIndexMap from by decide)]
  have hsi : GD.siIdx (ix4 b p l q) ⟨List.idxOf (0 : Fin 5) GD.startIndexMap,
      List.idxOf_lt_length_iff.2 (by decide)⟩ = ix4 b p l (0 : Fin 4) := by
    funext b'; refine Fin.ext ?_
    match b' with
    | ⟨0, _⟩ => rfl
    | ⟨1, _⟩ => rfl
    | ⟨2, _⟩ => rfl
    | ⟨3, _⟩ => rfl
  rw [hsi]
  rfl

theorem opIdx1 (idx : IVec S8x100x11x4 32) (b : Fin 8) (p : Fin 100) (l : Fin 11) (q : Fin 64) :
    (GD.operandIdx (ix4 b p l q) idx (1 : Fin 5)).val = min (idx (ix4 b p l (1 : Fin 4))).toInt.toNat 49 := by
  show GD.start (ix4 b p l q) idx (1 : Fin 5) + GD.batchCoord (ix4 b p l q) (1 : Fin 5) + GD.offCoord (ix4 b p l q) (1 : Fin 5) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 5) ∈ GD.startIndexMap from by decide)]
  have hsi : GD.siIdx (ix4 b p l q) ⟨List.idxOf (1 : Fin 5) GD.startIndexMap,
      List.idxOf_lt_length_iff.2 (by decide)⟩ = ix4 b p l (1 : Fin 4) := by
    funext b'; refine Fin.ext ?_
    match b' with
    | ⟨0, _⟩ => rfl
    | ⟨1, _⟩ => rfl
    | ⟨2, _⟩ => rfl
    | ⟨3, _⟩ => rfl
  rw [hsi]
  rfl

theorem opIdx2 (idx : IVec S8x100x11x4 32) (b : Fin 8) (p : Fin 100) (l : Fin 11) (q : Fin 64) :
    (GD.operandIdx (ix4 b p l q) idx (2 : Fin 5)).val = min (idx (ix4 b p l (2 : Fin 4))).toInt.toNat 49 := by
  show GD.start (ix4 b p l q) idx (2 : Fin 5) + GD.batchCoord (ix4 b p l q) (2 : Fin 5) + GD.offCoord (ix4 b p l q) (2 : Fin 5) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (2 : Fin 5) ∈ GD.startIndexMap from by decide)]
  have hsi : GD.siIdx (ix4 b p l q) ⟨List.idxOf (2 : Fin 5) GD.startIndexMap,
      List.idxOf_lt_length_iff.2 (by decide)⟩ = ix4 b p l (2 : Fin 4) := by
    funext b'; refine Fin.ext ?_
    match b' with
    | ⟨0, _⟩ => rfl
    | ⟨1, _⟩ => rfl
    | ⟨2, _⟩ => rfl
    | ⟨3, _⟩ => rfl
  rw [hsi]
  rfl

theorem opIdx3 (idx : IVec S8x100x11x4 32) (b : Fin 8) (p : Fin 100) (l : Fin 11) (q : Fin 64) :
    (GD.operandIdx (ix4 b p l q) idx (3 : Fin 5)).val = min (idx (ix4 b p l (3 : Fin 4))).toInt.toNat 99 := by
  show GD.start (ix4 b p l q) idx (3 : Fin 5) + GD.batchCoord (ix4 b p l q) (3 : Fin 5) + GD.offCoord (ix4 b p l q) (3 : Fin 5) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (3 : Fin 5) ∈ GD.startIndexMap from by decide)]
  have hsi : GD.siIdx (ix4 b p l q) ⟨List.idxOf (3 : Fin 5) GD.startIndexMap,
      List.idxOf_lt_length_iff.2 (by decide)⟩ = ix4 b p l (3 : Fin 4) := by
    funext b'; refine Fin.ext ?_
    match b' with
    | ⟨0, _⟩ => rfl
    | ⟨1, _⟩ => rfl
    | ⟨2, _⟩ => rfl
    | ⟨3, _⟩ => rfl
  rw [hsi]
  rfl

theorem opIdx4 (idx : IVec S8x100x11x4 32) (b : Fin 8) (p : Fin 100) (l : Fin 11) (q : Fin 64) :
    (GD.operandIdx (ix4 b p l q) idx (4 : Fin 5)).val = q.val := by
  show GD.start (ix4 b p l q) idx (4 : Fin 5) + GD.batchCoord (ix4 b p l q) (4 : Fin 5) + GD.offCoord (ix4 b p l q) (4 : Fin 5) = _
  rw [GatherDims.batchCoord_eq_zero _ _ _ List.not_mem_nil]
  unfold GatherDims.start
  rw [dif_neg (show ¬ (4 : Fin 5) ∈ GD.startIndexMap from by decide)]
  unfold GatherDims.offCoord
  rw [dif_pos (show (4 : Fin 5) ∈ GD.sKept from by decide)]
  have key : ∀ (i : Nat) (hi : i < GD.offsetDims.length), GD.offsetDims[i]'hi = (3 : Fin 4) := by
    intro i hi
    have hi' : i < 1 := hi
    obtain rfl : i = 0 := by omega
    rfl
  rw [key]
  simp only [Nat.zero_add]

/-- The gather at an index: the features at the four start-index columns, each read signed and clamped into its axis. -/
theorem gather_apply (x0 : EdgeArr) (idx : IVec S8x100x11x4 32) (b : Fin 8) (p : Fin 100) (l : Fin 11) (q : Fin 64) :
    Host.gather GD x0 idx (ix4 b p l q)
      = x0 (ix5 (⟨min (idx (ix4 b p l (0 : Fin 4))).toInt.toNat 7, by omega⟩ : Fin 8)
               (⟨min (idx (ix4 b p l (1 : Fin 4))).toInt.toNat 49, by omega⟩ : Fin 50)
               (⟨min (idx (ix4 b p l (2 : Fin 4))).toInt.toNat 49, by omega⟩ : Fin 50)
               (⟨min (idx (ix4 b p l (3 : Fin 4))).toInt.toNat 99, by omega⟩ : Fin 100) q) := by
  unfold Host.gather
  congr 1
  funext a
  refine Fin.ext ?_
  match a with
  | ⟨0, _⟩ => exact opIdx0 idx b p l q
  | ⟨1, _⟩ => exact opIdx1 idx b p l q
  | ⟨2, _⟩ => exact opIdx2 idx b p l q
  | ⟨3, _⟩ => exact opIdx3 idx b p l q
  | ⟨4, _⟩ => exact opIdx4 idx b p l q

/-- Column 0 of the start-index array is the first piece. -/
theorem v32_col0 (x1 : NodeArr) (b : Fin 8) (p : Fin 100) (l : Fin 11) :
    Read.val_main_v32 (F := Ideal) x1 (ix4 b p l (0 : Fin 4)) = (val_main_v28 (F := Ideal)) (ix4 b p l (0 : Fin 1)) := by
  unfold Read.val_main_v32
  exact concatenate_apply_piece (t := S8x100x11x4) (3 : Fin 4)
    [⟨S8x100x11x1, (val_main_v28 (F := Ideal))⟩, ⟨S8x100x11x1, (val_main_v29 (F := Ideal) x1)⟩, ⟨S8x100x11x1, (val_main_v30 (F := Ideal) x1)⟩, ⟨S8x100x11x1, (val_main_v31 (F := Ideal))⟩]
    concatenates_S8x100x11x1_S8x100x11x1_S8x100x11x1_S8x100x11x1_S8x100x11x4_d3 (ix4 b p l (0 : Fin 4))
    0 (by show _ < 4; omega) S8x100x11x1 (val_main_v28 (F := Ideal)) rfl rfl 0 rfl (ix4 b p l (0 : Fin 1))
    (fun b' hb => by
      match b' with
      | ⟨0, _⟩ => rfl
      | ⟨1, _⟩ => rfl
      | ⟨2, _⟩ => rfl
      | ⟨3, _⟩ => exact absurd rfl hb) rfl

/-- Column 1 of the start-index array is the second piece. -/
theorem v32_col1 (x1 : NodeArr) (b : Fin 8) (p : Fin 100) (l : Fin 11) :
    Read.val_main_v32 (F := Ideal) x1 (ix4 b p l (1 : Fin 4)) = (val_main_v29 (F := Ideal) x1) (ix4 b p l (0 : Fin 1)) := by
  unfold Read.val_main_v32
  exact concatenate_apply_piece (t := S8x100x11x4) (3 : Fin 4)
    [⟨S8x100x11x1, (val_main_v28 (F := Ideal))⟩, ⟨S8x100x11x1, (val_main_v29 (F := Ideal) x1)⟩, ⟨S8x100x11x1, (val_main_v30 (F := Ideal) x1)⟩, ⟨S8x100x11x1, (val_main_v31 (F := Ideal))⟩]
    concatenates_S8x100x11x1_S8x100x11x1_S8x100x11x1_S8x100x11x1_S8x100x11x4_d3 (ix4 b p l (1 : Fin 4))
    1 (by show _ < 4; omega) S8x100x11x1 (val_main_v29 (F := Ideal) x1) rfl rfl 1 rfl (ix4 b p l (0 : Fin 1))
    (fun b' hb => by
      match b' with
      | ⟨0, _⟩ => rfl
      | ⟨1, _⟩ => rfl
      | ⟨2, _⟩ => rfl
      | ⟨3, _⟩ => exact absurd rfl hb) rfl

/-- Column 2 of the start-index array is the third piece. -/
theorem v32_col2 (x1 : NodeArr) (b : Fin 8) (p : Fin 100) (l : Fin 11) :
    Read.val_main_v32 (F := Ideal) x1 (ix4 b p l (2 : Fin 4)) = (val_main_v30 (F := Ideal) x1) (ix4 b p l (0 : Fin 1)) := by
  unfold Read.val_main_v32
  exact concatenate_apply_piece (t := S8x100x11x4) (3 : Fin 4)
    [⟨S8x100x11x1, (val_main_v28 (F := Ideal))⟩, ⟨S8x100x11x1, (val_main_v29 (F := Ideal) x1)⟩, ⟨S8x100x11x1, (val_main_v30 (F := Ideal) x1)⟩, ⟨S8x100x11x1, (val_main_v31 (F := Ideal))⟩]
    concatenates_S8x100x11x1_S8x100x11x1_S8x100x11x1_S8x100x11x1_S8x100x11x4_d3 (ix4 b p l (2 : Fin 4))
    2 (by show _ < 4; omega) S8x100x11x1 (val_main_v30 (F := Ideal) x1) rfl rfl 2 rfl (ix4 b p l (0 : Fin 1))
    (fun b' hb => by
      match b' with
      | ⟨0, _⟩ => rfl
      | ⟨1, _⟩ => rfl
      | ⟨2, _⟩ => rfl
      | ⟨3, _⟩ => exact absurd rfl hb) rfl

/-- Column 3 of the start-index array is the fourth piece. -/
theorem v32_col3 (x1 : NodeArr) (b : Fin 8) (p : Fin 100) (l : Fin 11) :
    Read.val_main_v32 (F := Ideal) x1 (ix4 b p l (3 : Fin 4)) = (val_main_v31 (F := Ideal)) (ix4 b p l (0 : Fin 1)) := by
  unfold Read.val_main_v32
  exact concatenate_apply_piece (t := S8x100x11x4) (3 : Fin 4)
    [⟨S8x100x11x1, (val_main_v28 (F := Ideal))⟩, ⟨S8x100x11x1, (val_main_v29 (F := Ideal) x1)⟩, ⟨S8x100x11x1, (val_main_v30 (F := Ideal) x1)⟩, ⟨S8x100x11x1, (val_main_v31 (F := Ideal))⟩]
    concatenates_S8x100x11x1_S8x100x11x1_S8x100x11x1_S8x100x11x1_S8x100x11x4_d3 (ix4 b p l (3 : Fin 4))
    3 (by show _ < 4; omega) S8x100x11x1 (val_main_v31 (F := Ideal)) rfl rfl 3 rfl (ix4 b p l (0 : Fin 1))
    (fun b' hb => by
      match b' with
      | ⟨0, _⟩ => rfl
      | ⟨1, _⟩ => rfl
      | ⟨2, _⟩ => rfl
      | ⟨3, _⟩ => exact absurd rfl hb) rfl

/-- A word whose unsigned value is below 2^31 reads the same signed. -/
theorem toInt_of_lt (w : BitVec 32) (h : w.toNat < 2147483648) : w.toInt = (w.toNat : Int) := by
  unfold BitVec.toInt
  rw [if_pos (by omega)]

/-- Such a word is not below zero. -/
theorem slt_zero (w : BitVec 32) (h : w.toNat < 2147483648) : IntOp.cmpi .slt w 0#32 = 0#1 := by
  have hs : w.slt 0#32 = false := by
    rw [BitVec.slt, toInt_of_lt w h]
    simp
  show BitVec.ofBool (w.slt 0#32) = 0#1
  rw [hs]
  rfl

/-- The wrap-around select keeps a word that is not below zero. -/
theorem wrap_keep (w c : BitVec 32) (h : w.toNat < 2147483648) :
    Scalar.select (IntOp.cmpi .slt w 0#32) (IntOp.addi w c) w = w := by
  rw [slt_zero w h]
  exact select_zero _ _

/-- The word of a small number, read signed and clamped, is the number. -/
theorem clamp_ofNat (n cap : Nat) (h : n ≤ cap) (hc : cap < 2147483648) :
    min (BitVec.ofNat 32 n).toInt.toNat cap = n := by
  have hn : (BitVec.ofNat 32 n).toNat = n := by
    rw [BitVec.toNat_ofNat]; exact Nat.mod_eq_of_lt (by omega)
  rw [toInt_of_lt _ (by omega), hn, Int.toNat_natCast]
  exact Nat.min_eq_left h

/-- A node word in range, read signed and clamped into `[0, 49]`, is the node it names. -/
theorem clamp_node (w : BitVec 32) (h : w.toNat < 50) : min w.toInt.toNat 49 = (nodeIx w).val := by
  rw [toInt_of_lt _ (by omega), Int.toNat_natCast]
  show min w.toNat 49 = w.toNat % 50
  rw [Nat.min_eq_left (by omega), Nat.mod_eq_of_lt h]

/-- The batch column: the batch number. -/
theorem v28_val (b : Fin 8) (p : Fin 100) (l : Fin 11) :
    Read.val_main_v28 (F := Ideal) (ix4 b p l (0 : Fin 1)) = BitVec.ofNat 32 b.val := by
  rw [val_main_v28_apply, val_main_v26_apply, val_main_v10_apply, val_main_v7_apply, val_main_v9_apply,
    val_main_v3_apply, val_main_v2_apply, val_main_v6_apply, val_main_c_apply, val_main_v8_apply, val_main_c_0_apply]
  have e : (idx_main_v3 (idx_main_v26 (idx_main_v28 (ix4 b p l (0 : Fin 1)))) 0).val = b.val := rfl
  rw [e]
  refine wrap_keep _ _ ?_
  rw [BitVec.toNat_ofNat]
  have := b.isLt
  have := Nat.mod_le b.val (2 ^ 32)
  omega

/-- The commodity column: the commodity number. -/
theorem v31_val (b : Fin 8) (p : Fin 100) (l : Fin 11) :
    Read.val_main_v31 (F := Ideal) (ix4 b p l (0 : Fin 1)) = BitVec.ofNat 32 p.val := by
  rw [val_main_v31_apply, val_main_v27_apply, val_main_v25_apply, val_main_v22_apply, val_main_v24_apply,
    val_main_v5_apply, val_main_v4_apply, val_main_v21_apply, val_main_c_5_apply, val_main_v23_apply, val_main_c_6_apply]
  have e : (idx_main_v5 (idx_main_v27 (idx_main_v31 (ix4 b p l (0 : Fin 1)))) 0).val = p.val := rfl
  rw [e]
  refine wrap_keep _ _ ?_
  rw [BitVec.toNat_ofNat]
  have := p.isLt
  have := Nat.mod_le p.val (2 ^ 32)
  omega

/-- The source-node column: the path's node `l`, kept by the wrap-around when it is in range. -/
theorem v29_val (x1 : NodeArr) (h1 : NodesInRange x1) (b : Fin 8) (p : Fin 100) (l : Fin 11) :
    Read.val_main_v29 (F := Ideal) x1 (ix4 b p l (0 : Fin 1)) = x1 (ix3 b p l.castSucc) := by
  have e : idx_main_v0 (idx_main_v29 (ix4 b p l (0 : Fin 1))) = ix3 b p l.castSucc := by
    funext a; match a with | ⟨0, _⟩ => rfl | ⟨1, _⟩ => rfl | ⟨2, _⟩ => rfl
  rw [val_main_v29_apply, val_main_v15_apply, val_main_v12_apply, val_main_v14_apply, val_main_v0_apply, e,
    val_main_v11_apply, val_main_c_1_apply, val_main_v13_apply, val_main_c_2_apply]
  exact wrap_keep _ _ (by have := h1 (ix3 b p l.castSucc); omega)

/-- The target-node column: the path's node `l + 1`, kept by the wrap-around when it is in range. -/
theorem v30_val (x1 : NodeArr) (h1 : NodesInRange x1) (b : Fin 8) (p : Fin 100) (l : Fin 11) :
    Read.val_main_v30 (F := Ideal) x1 (ix4 b p l (0 : Fin 1)) = x1 (ix3 b p l.succ) := by
  have e : idx_main_v1 (idx_main_v30 (ix4 b p l (0 : Fin 1))) = ix3 b p l.succ := by
    funext a
    match a with
    | ⟨0, _⟩ => rfl
    | ⟨1, _⟩ => rfl
    | ⟨2, _⟩ => exact Fin.ext (Nat.add_comm 1 l.val)
  rw [val_main_v30_apply, val_main_v20_apply, val_main_v17_apply, val_main_v19_apply, val_main_v1_apply, e,
    val_main_v16_apply, val_main_c_3_apply, val_main_v18_apply, val_main_c_4_apply]
  exact wrap_keep _ _ (by have := h1 (ix3 b p l.succ); omega)

/-- The gathered features at an index: the edge from the path's node `l` to its node `l + 1`. -/
theorem gather_val (x0 : EdgeArr) (x1 : NodeArr) (h1 : NodesInRange x1) (b : Fin 8) (p : Fin 100) (l : Fin 11)
    (q : Fin 64) :
    Read.val_main_v33 (F := Ideal) x0 x1 (ix4 b p l q)
      = x0 (ix5 b (nodeIx (x1 (ix3 b p l.castSucc))) (nodeIx (x1 (ix3 b p l.succ))) p q) := by
  unfold Read.val_main_v33
  refine (gather_apply x0 (val_main_v32 (F := Ideal) x1) b p l q).trans ?_
  congr 1
  funext a
  refine Fin.ext ?_
  match a with
  | ⟨0, _⟩ =>
    show min (val_main_v32 (F := Ideal) x1 (ix4 b p l (0 : Fin 4))).toInt.toNat 7 = b.val
    rw [v32_col0, v28_val]
    exact clamp_ofNat b.val 7 (by have := b.isLt; omega) (by omega)
  | ⟨1, _⟩ =>
    show min (val_main_v32 (F := Ideal) x1 (ix4 b p l (1 : Fin 4))).toInt.toNat 49 = (nodeIx (x1 (ix3 b p l.castSucc))).val
    rw [v32_col1, v29_val x1 h1]
    exact clamp_node _ (h1 _)
  | ⟨2, _⟩ =>
    show min (val_main_v32 (F := Ideal) x1 (ix4 b p l (2 : Fin 4))).toInt.toNat 49 = (nodeIx (x1 (ix3 b p l.succ))).val
    rw [v32_col2, v30_val x1 h1]
    exact clamp_node _ (h1 _)
  | ⟨3, _⟩ =>
    show min (val_main_v32 (F := Ideal) x1 (ix4 b p l (3 : Fin 4))).toInt.toNat 99 = p.val
    rw [v32_col3, v31_val]
    exact clamp_ofNat p.val 99 (by have := p.isLt; omega) (by omega)
  | ⟨4, _⟩ => rfl

/-- The first 64 columns: the counted edges' features summed edge by edge, divided by the count. -/
theorem first_cols (x0 : EdgeArr) (x1 : NodeArr) (x2 : LenArr) (x3 : DemArr) (h1 : NodesInRange x1) (b : Fin 8)
    (p : Fin 100) (k : Fin 65) (hk : k.val < 64) :
    Read.val_main_v58 (F := Ideal) x0 x1 x2 x3 (ix3 b p k)
      = Ideal.div (∑ l : Fin 11, x0 (ix5 b (nodeIx (x1 (ix3 b p l.castSucc))) (nodeIx (x1 (ix3 b p l.succ))) p ⟨k.val, hk⟩)
          * maskE (x2 (ix2 b p)) l) (cntE (x2 (ix2 b p))) := by
  unfold Read.val_main_v58
  refine (concatenate_pair_apply_left (t := S8x100x65) (s₁ := S8x100x64) (s₂ := S8x100x1) (2 : Fin 3) _ _
    concatenates_S8x100x64_S8x100x1_S8x100x65_d2 (ix3 b p k) rfl (ix3 b p (⟨k.val, hk⟩ : Fin 64)) (fun b' => by
      match b' with
      | ⟨0, _⟩ => rfl
      | ⟨1, _⟩ => rfl
      | ⟨2, _⟩ => rfl)).trans ?_
  rw [val_main_v54_apply, val_main_v48_apply, count_apply, val_main_cst_apply]
  have e : ∀ l : Fin 11, idx_main_v48 (ix3 b p (⟨k.val, hk⟩ : Fin 64)) l = ix4 b p l (⟨k.val, hk⟩ : Fin 64) := fun l => by
    funext a; match a with | ⟨0, _⟩ => rfl | ⟨1, _⟩ => rfl | ⟨2, _⟩ => rfl | ⟨3, _⟩ => rfl
  have hs : ∀ l : Fin 11, val_main_v47 (F := Ideal) x0 x1 x2 (idx_main_v48 (ix3 b p (⟨k.val, hk⟩ : Fin 64)) l)
      = x0 (ix5 b (nodeIx (x1 (ix3 b p l.castSucc))) (nodeIx (x1 (ix3 b p l.succ))) p ⟨k.val, hk⟩)
          * maskE (x2 (ix2 b p)) l := fun l => by
    rw [e l, val_main_v47_apply, gather_val x0 x1 h1, mask_apply]
    rfl
  rw [Finset.sum_congr rfl (fun l _ => hs l)]
  show Ideal.div (Ideal.ofBits .f32 0x00000000#32 + _) _ = _
  rw [Ideal.ofBits_zero_f32, zero_add]

/-- For node words in range the program's result term is the edge-by-edge function. -/
theorem result_eq (x0 : EdgeArr) (x1 : NodeArr) (x2 : LenArr) (x3 : DemArr) (h1 : NodesInRange x1) :
    (Read.val_main_v58 (F := Ideal) x0 x1 x2 x3 : OutArr) = gatherArr x0 x1 x2 x3 := by
  funext j
  obtain ⟨b, p, k, rfl⟩ : ∃ (b : Fin 8) (p : Fin 100) (k : Fin 65), j = ix3 b p k := ⟨j 0, j 1, j 2, eq_ix3 j⟩
  show _ = gatherVal (fun u v q => x0 (ix5 b u v p q)) (fun l => x1 (ix3 b p l)) (x2 (ix2 b p)) (x3 (ix2 b p)) k
  unfold gatherVal
  by_cases hk : k.val < 64
  · rw [dif_pos hk]
    exact first_cols x0 x1 x2 x3 h1 b p k hk
  · rw [dif_neg hk]
    exact last_col x0 x1 x2 x3 b p k hk

end Cert.ReferenceIdeal.RefValue

end
-- ==== Proof.Pre.lean ====
import proofs.«422074_j46059229282881_3_alg».proof.Pre_finite_inputs
import proofs.«422074_j46059229282881_3_alg».proof.Proof.Gen.Pre_finite_inputs
import proofs.«422074_j46059229282881_3_alg».proof.Proof.Spec
import Idealize.ShloMosaic.Lib.ValueIdx
import Idealize.ShloMosaic.Lib.ReduceAll
import Idealize.ShloMosaic.Lib.StableHlo.Predicate
import Idealize.ShloMosaic.PureOps.Ideal.Laws

/-!
# What the precondition says of the inputs

The precondition is the conjunction of four whole-array tests: every edge feature is below +∞ in absolute
value, every demand likewise, every node word is at least 0 and every node word is below 50 (signed). From it:
every edge feature is a real number, and every node word, read unsigned, is below 50.
-/

set_option maxRecDepth 16384

noncomputable section

open Idealize.ShloMosaic Idealize.ShloMosaic.ValueIdx
open scoped BigOperators

namespace Cert.PreFacts

open Cert.PathMean

/-- The result of a reduction over every axis has one index. -/
private instance subsingleton_scalarIdx : Subsingleton (⟨0, ![]⟩ : Shape).Idx :=
  ⟨fun a b => funext fun d => d.elim0⟩

/-- The f32 pattern with all exponent bits set and no fraction bit denotes +∞. -/
private theorem inf_word : Ideal.ofBits .f32 0x7F800000#32 = (⊤ : EReal) := by
  simp [Ideal.ofBits, Ideal.ieee]

/-- An extended real whose absolute value `max x (-x)` is below +∞ is a real number: +∞ is its own
    absolute value, and −∞ has +∞ for its. -/
private theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- The element test `|x| < +∞`, read back. -/
private theorem real_of_test (x : EReal)
    (hx : Ideal.cmp .olt (max x (-x)) (Ideal.ofBits .f32 0x7F800000#32) = 1#1) : ∃ r : ℝ, x = (r : EReal) := by
  rw [inf_word] at hx
  apply real_of_abs_lt_top
  simpa [Ideal.cmp, StableHlo.Predicate.ofBool_eq_one_iff] using hx

/-- A word that is at least 0 and below 50 as a signed number is below 50 as an unsigned one: a word with
    its top bit set reads negative. -/
private theorem word_lt_50 (w : BitVec 32) (h0 : IntOp.cmpi .sge w 0#32 = 1#1) (h50 : IntOp.cmpi .slt w 50#32 = 1#1) :
    w.toNat < 50 := by
  unfold IntOp.cmpi at h0 h50
  rw [StableHlo.Predicate.ofBool_eq_one_iff] at h0 h50
  have z0 : (0#32 : BitVec 32).toInt = 0 := by decide
  have z50 : (50#32 : BitVec 32).toInt = 50 := by decide
  simp only [BitVec.sle, BitVec.slt, decide_eq_true_eq, z0, z50] at h0 h50
  have hw := w.isLt
  rw [BitVec.toInt_eq_toNat_cond] at h0 h50
  split at h0 <;> omega

/-- The precondition gives finite edge features and node words in range. -/
theorem of_pre [hPre : Cert.Pre_finite_inputs.Facts] (x0 : EdgeArr) (x1 : NodeArr) (x2 : LenArr) (x3 : DemArr)
    (h : Cert.Pre_finite_inputs.fn (F := Ideal) x0 x1 x2 x3 = fun _ => 1#1) :
    FiniteArr x0 ∧ NodesInRange x1 := by
  have h0 := congrFun h ValueIdx.ix0
  dsimp only [Cert.Pre_finite_inputs.fn, Cert.Pre_finite_inputs.fn_part1, andi] at h0
  rw [IntOp.andi_eq_one, IntOp.andi_eq_one, IntOp.andi_eq_one] at h0
  obtain ⟨⟨⟨hA, _⟩, hGe⟩, hLt⟩ := h0
  constructor
  · intro i
    have e := Host.reduce_andi_all _ _ _ _ _ hA i
    exact real_of_test (x0 i) e
  · intro i
    have e0 := Host.reduce_andi_all _ _ _ _ _ hGe i
    have e50 := Host.reduce_andi_all _ _ _ _ _ hLt i
    exact word_lt_50 (x1 i) e0 e50

end Cert.PreFacts

end
-- ==== Proof.lean ====
/-
  The selecting program and the gathering program compute the same array.

  For a batch entry and a commodity a path is twelve node words and a length; its counted edges are the
  consecutive node pairs below `max (len - 1) 0`. The gathering program reads the 64 features of each counted edge
  and averages them; the selecting program builds, for every pair of nodes, the number of counted edges joining
  them, streams ALL the features past that weight in ten tiles of five destination nodes, adds the tiles up in a
  carried running sum, and divides by the same count. For node words in `[0, 50)` the weight of a pair is a sum
  of indicator products, so the weighted sum over all pairs collapses, edge by edge, to the feature of the edge's
  own pair — an exchange of finite sums of REAL numbers, which is why the features are required finite.
  The last place of each row is the demand over 500 in both programs.
-/
import proofs.«422074_j46059229282881_3_alg».proof.Defs
import proofs.«422074_j46059229282881_3_alg».proof.Proof.Gen.Kernel
import proofs.«422074_j46059229282881_3_alg».proof.Proof.Gen.Kernel.Skeleton
import proofs.«422074_j46059229282881_3_alg».proof.Proof.Gen.Kernel.Launch
import proofs.«422074_j46059229282881_3_alg».proof.Proof.Gen.Kernel.Points
import proofs.«422074_j46059229282881_3_alg».proof.Proof.Gen.Kernel.Frame
import proofs.«422074_j46059229282881_3_alg».proof.Proof.Gen.KernelIdeal
import proofs.«422074_j46059229282881_3_alg».proof.Proof.Gen.KernelIdeal.Skeleton
import proofs.«422074_j46059229282881_3_alg».proof.Proof.Gen.KernelIdeal.Launch
import proofs.«422074_j46059229282881_3_alg».proof.Proof.Gen.KernelIdeal.Points
import proofs.«422074_j46059229282881_3_alg».proof.Proof.Gen.KernelIdeal.Frame
import proofs.«422074_j46059229282881_3_alg».proof.Proof.Gen.ReferenceIdeal
import proofs.«422074_j46059229282881_3_alg».proof.Proof.Gen.Pre_finite_inputs
import proofs.«422074_j46059229282881_3_alg».proof.Proof.Gen.KernelIdeal.Value
import proofs.«422074_j46059229282881_3_alg».proof.Proof.Gen.ReferenceIdeal.Run
import proofs.«422074_j46059229282881_3_alg».proof.Proof.Gen.ReferenceIdeal.Read
import proofs.«422074_j46059229282881_3_alg».proof.Proof.Spec
import proofs.«422074_j46059229282881_3_alg».proof.Proof.KernelRun
import proofs.«422074_j46059229282881_3_alg».proof.Proof.RefValue
import proofs.«422074_j46059229282881_3_alg».proof.Proof.Pre
import Idealize.ShloMosaic.Adequacy
import Idealize.ShloMosaic.Init

noncomputable section

namespace Cert.Proof

open Idealize.ShloMosaic Idealize.ShloMosaic.TcCoe Idealize.SL.Sem Cert.PathMean

/-- The word-level program runs and keeps its inputs. -/
theorem frame_k : Cert.frame_Kernel := fun m ρ _ => Cert.Kernel.Gen.frame m ρ

/-- The idealized selecting program runs and keeps its inputs. -/
theorem frame_ki : Cert.frame_KernelIdeal := fun m ρ _ => Cert.KernelIdeal.Gen.frame m ρ

/-- The gathering program runs and keeps its inputs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the dense weighted sum, which under the precondition is the edge-by-edge mean. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hfin, hrange⟩ := Cert.PreFacts.of_pre _ _ _ _ (hpre c)
  rw [Cert.ReferenceIdeal.Read.val_main_v58_eq, (hagree c).1, (hagree c).2.1, (hagree c).2.2.1, (hagree c).2.2.2]
  exact (Cert.ReferenceIdeal.RefValue.result_eq _ _ _ _ hrange).trans
    (denseArr_eq_gatherArr _ _ _ _ hfin hrange).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
